-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2500000 : Shape := ⟨1, ![2500000]⟩
abbrev S100000 : Shape := ⟨1, ![100000]⟩
abbrev S6x32 : Shape := ⟨2, ![6, 32]⟩
abbrev S32 : Shape := ⟨1, ![32]⟩
abbrev S32x64 : Shape := ⟨2, ![32, 64]⟩
abbrev S64 : Shape := ⟨1, ![64]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x6 .f32) (main_arg1 : IVec S2500000 32) (main_arg2 : IVec S2500000 32) (main_arg3 : IVec S100000 32) (main_arg4 : FVec F S6x32 .f32) (main_arg5 : FVec F S32 .f32) (main_arg6 : FVec F S32x64 .f32) (main_arg7 : FVec F S64 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x32 .f32 := Host.absf main_arg4
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg6
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg7 main_v13 main_v16
-- ==== Kernel.lean ====
abbrev S100000x6 : Shape := ⟨2, ![100000, 6]⟩
abbrev S2500000 : Shape := ⟨1, ![2500000]⟩
abbrev S100000 : Shape := ⟨1, ![100000]⟩
abbrev S6x32 : Shape := ⟨2, ![6, 32]⟩
abbrev S32 : Shape := ⟨1, ![32]⟩
abbrev S32x64 : Shape := ⟨2, ![32, 64]⟩
abbrev S64 : Shape := ⟨1, ![64]⟩
abbrev S_ : Shape := ⟨0, ![]⟩
abbrev S2500000x1 : Shape := ⟨2, ![2500000, 1]⟩
abbrev S2500000x6 : Shape := ⟨2, ![2500000, 6]⟩
abbrev S2500000x7 : Shape := ⟨2, ![2500000, 7]⟩
abbrev S100000x7 : Shape := ⟨2, ![100000, 7]⟩
abbrev S100000x1 : Shape := ⟨2, ![100000, 1]⟩
abbrev S1x32 : Shape := ⟨2, ![1, 32]⟩
abbrev S100000x32 : Shape := ⟨2, ![100000, 32]⟩
abbrev S4000x6 : Shape := ⟨2, ![4000, 6]⟩
abbrev S4000x1 : Shape := ⟨2, ![4000, 1]⟩
abbrev S4000x32 : Shape := ⟨2, ![4000, 32]⟩
abbrev S2500000x32 : Shape := ⟨2, ![2500000, 32]⟩
abbrev S1x64 : Shape := ⟨2, ![1, 64]⟩
abbrev S256x64 : Shape := ⟨2, ![256, 64]⟩
abbrev S1x256 : Shape := ⟨2, ![1, 256]⟩
abbrev S4000x64 : Shape := ⟨2, ![4000, 64]⟩
abbrev S4000x256 : Shape := ⟨2, ![4000, 256]⟩
abbrev S256 : Shape := ⟨1, ![256]⟩
abbrev S256x1 : Shape := ⟨2, ![256, 1]⟩

abbrev nBuf : Space → Nat
  | .hbm => 60
  | .vmem => 22
  | .smem => 0
  | _ => 0

abbrev bufTy : (tb : Table) → Fin (tcTables nBuf tb) → BufTy
  | .hbm, ⟨0, _⟩ => ⟨S100000x6, .f32⟩
  | .hbm, ⟨1, _⟩ => ⟨S2500000, .i32⟩
  | .hbm, ⟨2, _⟩ => ⟨S2500000, .i32⟩
  | .hbm, ⟨3, _⟩ => ⟨S100000, .i32⟩
  | .hbm, ⟨4, _⟩ => ⟨S6x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S_, .f32⟩
  | .hbm, ⟨9, _⟩ => ⟨S2500000x1, .f32⟩
  | .hbm, ⟨10, _⟩ => ⟨S_, .i32⟩
  | .hbm, ⟨11, _⟩ => ⟨S2500000, .i32⟩
  | .hbm, ⟨12, _⟩ => ⟨S2500000, .i1⟩
  | .hbm, ⟨13, _⟩ => ⟨S_, .i32⟩
  | .hbm, ⟨14, _⟩ => ⟨S2500000, .i32⟩
  | .hbm, ⟨15, _⟩ => ⟨S2500000, .i32⟩
  | .hbm, ⟨16, _⟩ => ⟨S2500000, .i32⟩
  | .hbm, ⟨17, _⟩ => ⟨S2500000x1, .i32⟩
  | .hbm, ⟨18, _⟩ => ⟨S2500000x6, .f32⟩
  | .hbm, ⟨19, _⟩ => ⟨S2500000x7, .f32⟩
  | .hbm, ⟨20, _⟩ => ⟨S_, .f32⟩
  | .hbm, ⟨21, _⟩ => ⟨S100000x7, .f32⟩
  | .hbm, ⟨22, _⟩ => ⟨S2500000x1, .i32⟩
  | .hbm, ⟨23, _⟩ => ⟨S100000x7, .f32⟩
  | .hbm, ⟨24, _⟩ => ⟨S100000x6, .f32⟩
  | .hbm, ⟨25, _⟩ => ⟨S100000x1, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x32, .f32⟩
  | .hbm, ⟨35, _⟩ => ⟨S100000x32, .bf16⟩
  | .hbm, ⟨36, _⟩ => ⟨S_, .i32⟩
  | .hbm, ⟨37, _⟩ => ⟨S2500000, .i32⟩
  | .hbm, ⟨38, _⟩ => ⟨S2500000, .i1⟩
  | .hbm, ⟨39, _⟩ => ⟨S_, .i32⟩
  | .hbm, ⟨40, _⟩ => ⟨S2500000, .i32⟩
  | .hbm, ⟨41, _⟩ => ⟨S2500000, .i32⟩
  | .hbm, ⟨42, _⟩ => ⟨S2500000, .i32⟩
  | .hbm, ⟨43, _⟩ => ⟨S2500000x1, .i32⟩
  | .hbm, ⟨44, _⟩ => ⟨S2500000x32, .bf16⟩
  | .hbm, ⟨45, _⟩ => ⟨S2500000x32, .f32⟩
  | .hbm, ⟨46, _⟩ => ⟨S_, .f32⟩
  | .hbm, ⟨47, _⟩ => ⟨S100000x32, .f32⟩
  | .hbm, ⟨48, _⟩ => ⟨S2500000x1, .i32⟩
  | .hbm, ⟨49, _⟩ => ⟨S100000x32, .f32⟩
  | .hbm, ⟨50, _⟩ => ⟨S100000x1, .i32⟩
  | .hbm, ⟨51, _⟩ => ⟨S1x64, .f32⟩
  | .hbm, ⟨52, _⟩ => ⟨S256x64, .f32⟩
  | .hbm, ⟨53, _⟩ => ⟨S1x256, .f32⟩
  | .hbm, ⟨54, _⟩ => ⟨S256x1, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x64, .f32⟩
  | .hbm, ⟨59, _⟩ => ⟨S256x64, .f32⟩
  | .local _ .vmem, ⟨0, _⟩ => ⟨S4000x6, .f32⟩
  | .local _ .vmem, ⟨1, _⟩ => ⟨S4000x6, .f32⟩
  | .local _ .vmem, ⟨2, _⟩ => ⟨S4000x6, .f32⟩
  | .local _ .vmem, ⟨3, _⟩ => ⟨S4000x6, .f32⟩
  | .local _ .vmem, ⟨4, _⟩ => ⟨S4000x1, .f32⟩
  | .local _ .vmem, ⟨5, _⟩ => ⟨S4000x1, .f32⟩
  | .local _ .vmem, ⟨6, _⟩ => ⟨S6x32, .f32⟩
  | .local _ .vmem, ⟨7, _⟩ => ⟨S1x32, .f32⟩
  | .local _ .vmem, ⟨8, _⟩ => ⟨S4000x32, .bf16⟩
  | .local _ .vmem, ⟨9, _⟩ => ⟨S4000x32, .bf16⟩
  | .local _ .vmem, ⟨10, _⟩ => ⟨S4000x32, .f32⟩
  | .local _ .vmem, ⟨11, _⟩ => ⟨S4000x32, .f32⟩
  | .local _ .vmem, ⟨12, _⟩ => ⟨S4000x32, .bf16⟩
  | .local _ .vmem, ⟨13, _⟩ => ⟨S4000x32, .bf16⟩
  | .local _ .vmem, ⟨14, _⟩ => ⟨S4000x1, .f32⟩
  | .local _ .vmem, ⟨15, _⟩ => ⟨S4000x1, .f32⟩
  | .local _ .vmem, ⟨16, _⟩ => ⟨S4000x1, .i32⟩
  | .local _ .vmem, ⟨17, _⟩ => ⟨S4000x1, .i32⟩
  | .local _ .vmem, ⟨18, _⟩ => ⟨S32x64, .f32⟩
  | .local _ .vmem, ⟨19, _⟩ => ⟨S1x64, .f32⟩
  | .local _ .vmem, ⟨20, _⟩ => ⟨S256x64, .f32⟩
  | .local _ .vmem, ⟨21, _⟩ => ⟨S1x256, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_0 : Ref sig .tc := ⟨.hbm, 52, rfl⟩
abbrev main_v35_1 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  bcast_S_S2500000x1 : S_.BroadcastsInDim S2500000x1 (![] : Fin 0 → Fin S2500000x1.rank)
  bcast_S_S2500000 : S_.BroadcastsInDim S2500000 (![] : Fin 0 → Fin S2500000.rank)
  bcast_S2500000_S2500000x1_0 : S2500000.BroadcastsInDim S2500000x1 (![0] : Fin 1 → Fin S2500000x1.rank)
  concatenates_S2500000x6_S2500000x1_S2500000x7_d1 : Shape.Concatenates [S2500000x6, S2500000x1] S2500000x7 1
  bcast_S_S100000x7 : S_.BroadcastsInDim S100000x7 (![] : Fin 0 → Fin S100000x7.rank)
  slices_S100000x7_S100000x6_0_0 : S100000x7.Slices ![0, 0] S100000x6
  slices_S100000x7_S100000x1_0_6 : S100000x7.Slices ![0, 6] S100000x1
  shapeCasts_S100000x1_S100000 : S100000x1.ShapeCasts S100000
  bcast_S_S100000 : S_.BroadcastsInDim S100000 (![] : Fin 0 → Fin S100000.rank)
  shapeCasts_S100000_S100000x1 : S100000.ShapeCasts S100000x1
  shapeCasts_S32_S1x32 : S32.ShapeCasts S1x32
  inb_S4000x6_S4000x6_0_0 : ∀ a, (![0, 0] : Fin 2 → Nat) a + S4000x6.size a ≤ S4000x6.size a
  h_S4000x6 : 0 < S4000x6.numel
  shapeCasts_S4000x6_S4000x6 : S4000x6.ShapeCasts S4000x6
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x32 : S4000x1.Broadcasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x256_S1x256_0_0 : ∀ a, (![0, 0] : Fin 2 → Nat) a + S1x256.size a ≤ S1x256.size a
  h_S1x256 : 0 < S1x256.numel
  shapeCasts_S4000x32_S4000x32 : S4000x32.ShapeCasts S4000x32
  inb_S32x64_S32x64_0_0 : ∀ a, (![0, 0] : Fin 2 → Nat) a + S32x64.size a ≤ S32x64.size a
  h_S32x64 : 0 < S32x64.numel
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  iota_S4000x256_d1_w32 : S4000x256.Iotas .tc 32 [1]
  broadcasts_S4000x1_S4000x256 : S4000x1.Broadcasts S4000x256
  natLt_1_32 : 1 < 32
  reduces_S4000x256_S256 : S4000x256.Reduces [0] S256
  shapeCasts_S256_S1x256 : S256.ShapeCasts S1x256
  shapeCasts_S256x64_S256x64 : S256x64.ShapeCasts S256x64
  shapeCasts_S1x256_S1x256 : S1x256.ShapeCasts S1x256
  shapeCasts_S1x256_S256x1 : S1x256.ShapeCasts S256x1
  bcast_S_S256x1 : S_.BroadcastsInDim S256x1 (![] : Fin 0 → Fin S256x1.rank)
  bcast_S256x1_S256x64_0_1 : S256x1.BroadcastsInDim S256x64 (![0, 1] : Fin 2 → Fin S256x64.rank)
  gather_S100000x6_S2500000x1_S2500000x6_1_0_n_n_0_1_16_wf : GatherDims.WF S100000x6 S2500000x1 S2500000x6 [1] [0] [] [0] [] 1 ![1, 6]
  scatter_S100000x7_S2500000x1_S2500000x7_1_0_0_1_wf : ScatterDims.WF S100000x7 S2500000x1 S2500000x7 [1] [0] [0] 1
  dot_S4000x6_S6x32_S4000x32_1_0_0_1_n_n_wf : DotDims.WF S4000x6 S6x32 S4000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S4000x32_S32x64_S4000x64_1_0_0_1_n_n_wf : DotDims.WF S4000x32 S32x64 S4000x64 [1] [0] [0] [1] [] []
  dot_S4000x256_S4000x64_S256x64_0_0_1_1_n_n_wf : DotDims.WF S4000x256 S4000x64 S256x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x6.size a ≤ S100000x6.size a
  hwx0_0 : ∀ i : grid0.Coords, EltTy.bits .f32 = 32 ∨ (Rect.block (s := S100000x6) S4000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x6.size a ≤ S100000x6.size a
  hwx0_1 : ∀ i : grid0.Coords, EltTy.bits .f32 = 32 ∨ (Rect.block (s := S100000x6) S4000x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x32.size a ≤ S6x32.size a
  hwx0_3 : ∀ i : grid0.Coords, EltTy.bits .f32 = 32 ∨ (Rect.block (s := S6x32) S6x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .bf16 = 32 ∨ (Rect.block (s := S100000x32) S4000x32.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S100000x32.size a
  hwx1_0 : ∀ i : grid1.Coords, EltTy.bits .f32 = 32 ∨ (Rect.block (s := S100000x32) S4000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S100000x32.size a
  hwx1_1 : ∀ i : grid1.Coords, EltTy.bits .bf16 = 32 ∨ (Rect.block (s := S100000x32) S4000x32.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .i32 = 32 ∨ (Rect.block (s := S100000x1) S4000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x64.size a ≤ S256x64.size a
  hwx1_6 : ∀ i : grid1.Coords, EltTy.bits .f32 = 32 ∨ (Rect.block (s := S256x64) S256x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)

variable [Facts₀]

def gather_S100000x6_S2500000x1_S2500000x6_1_0_n_n_0_1_16 : GatherDims S100000x6 S2500000x1 S2500000x6 where
  offsetDims := [1]
  collapsedSliceDims := [0]
  operandBatchingDims := []
  startIndicesBatchingDims := []
  startIndexMap := [0]
  indexVectorDim := 1
  sliceSizes := ![1, 6]
  wf := gather_S100000x6_S2500000x1_S2500000x6_1_0_n_n_0_1_16_wf
def scatter_S100000x7_S2500000x1_S2500000x7_1_0_0_1 : ScatterDims S100000x7 S2500000x1 S2500000x7 where
  updateWindowDims := [1]
  insertedWindowDims := [0]
  scatterDimsToOperandDims := [0]
  indexVectorDim := 1
  wf := scatter_S100000x7_S2500000x1_S2500000x7_1_0_0_1_wf
def dot_S4000x6_S6x32_S4000x32_1_0_0_1_n_n : DotDims S4000x6 S6x32 S4000x32 where
  lhsContracting := [1]
  rhsContracting := [0]
  lhsNonContracting := [0]
  rhsNonContracting := [1]
  lhsBatch := []
  rhsBatch := []
  wf := dot_S4000x6_S6x32_S4000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x256_S4000x64_S256x64_0_0_1_1_n_n : DotDims S4000x256 S4000x64 S256x64 where
  lhsContracting := [0]
  rhsContracting := [0]
  lhsNonContracting := [1]
  rhsNonContracting := [1]
  lhsBatch := []
  rhsBatch := []
  wf := dot_S4000x256_S4000x64_S256x64_0_0_1_1_n_n_wf

abbrev win0_0 : Pipeline.Window sig grid0 :=
  Pipeline.Window.ofSpec (Memref.whole main_v12) S4000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S6x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35_0) S256x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35_1) S1x256.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x6 : Shape := ⟨2, ![100000, 6]⟩
abbrev S2500000 : Shape := ⟨1, ![2500000]⟩
abbrev S100000 : Shape := ⟨1, ![100000]⟩
abbrev S6x32 : Shape := ⟨2, ![6, 32]⟩
abbrev S32 : Shape := ⟨1, ![32]⟩
abbrev S32x64 : Shape := ⟨2, ![32, 64]⟩
abbrev S64 : Shape := ⟨1, ![64]⟩
abbrev S_ : Shape := ⟨0, ![]⟩
abbrev S2500000x1 : Shape := ⟨2, ![2500000, 1]⟩
abbrev S2500000x6 : Shape := ⟨2, ![2500000, 6]⟩
abbrev S100000x1 : Shape := ⟨2, ![100000, 1]⟩
abbrev S100000x32 : Shape := ⟨2, ![100000, 32]⟩
abbrev S1x32 : Shape := ⟨2, ![1, 32]⟩
abbrev S2500000x32 : Shape := ⟨2, ![2500000, 32]⟩
abbrev S100000x64 : Shape := ⟨2, ![100000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x6, .f32⟩
  | .hbm, ⟨1, _⟩ => ⟨S2500000, .i32⟩
  | .hbm, ⟨2, _⟩ => ⟨S2500000, .i32⟩
  | .hbm, ⟨3, _⟩ => ⟨S100000, .i32⟩
  | .hbm, ⟨4, _⟩ => ⟨S6x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S_, .f32⟩
  | .hbm, ⟨9, _⟩ => ⟨S2500000, .f32⟩
  | .hbm, ⟨10, _⟩ => ⟨S_, .f32⟩
  | .hbm, ⟨11, _⟩ => ⟨S100000, .f32⟩
  | .hbm, ⟨12, _⟩ => ⟨S2500000x1, .i32⟩
  | .hbm, ⟨13, _⟩ => ⟨S100000, .f32⟩
  | .hbm, ⟨14, _⟩ => ⟨S_, .i32⟩
  | .hbm, ⟨15, _⟩ => ⟨S2500000, .i32⟩
  | .hbm, ⟨16, _⟩ => ⟨S2500000, .i1⟩
  | .hbm, ⟨17, _⟩ => ⟨S_, .i32⟩
  | .hbm, ⟨18, _⟩ => ⟨S2500000, .i32⟩
  | .hbm, ⟨19, _⟩ => ⟨S2500000, .i32⟩
  | .hbm, ⟨20, _⟩ => ⟨S2500000, .i32⟩
  | .hbm, ⟨21, _⟩ => ⟨S2500000x1, .i32⟩
  | .hbm, ⟨22, _⟩ => ⟨S2500000x6, .f32⟩
  | .hbm, ⟨23, _⟩ => ⟨S_, .f32⟩
  | .hbm, ⟨24, _⟩ => ⟨S100000x6, .f32⟩
  | .hbm, ⟨25, _⟩ => ⟨S2500000x1, .i32⟩
  | .hbm, ⟨26, _⟩ => ⟨S100000x6, .f32⟩
  | .hbm, ⟨27, _⟩ => ⟨S100000x6, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x6, .f32⟩
  | .hbm, ⟨33, _⟩ => ⟨S100000x6, .f32⟩
  | .hbm, ⟨34, _⟩ => ⟨S100000x32, .f32⟩
  | .hbm, ⟨35, _⟩ => ⟨S1x32, .f32⟩
  | .hbm, ⟨36, _⟩ => ⟨S100000x32, .f32⟩
  | .hbm, ⟨37, _⟩ => ⟨S100000x32, .f32⟩
  | .hbm, ⟨38, _⟩ => ⟨S_, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S2500000, .i32⟩
  | .hbm, ⟨43, _⟩ => ⟨S2500000, .i1⟩
  | .hbm, ⟨44, _⟩ => ⟨S_, .i32⟩
  | .hbm, ⟨45, _⟩ => ⟨S2500000, .i32⟩
  | .hbm, ⟨46, _⟩ => ⟨S2500000, .i32⟩
  | .hbm, ⟨47, _⟩ => ⟨S2500000, .i32⟩
  | .hbm, ⟨48, _⟩ => ⟨S2500000x1, .i32⟩
  | .hbm, ⟨49, _⟩ => ⟨S2500000x32, .f32⟩
  | .hbm, ⟨50, _⟩ => ⟨S_, .f32⟩
  | .hbm, ⟨51, _⟩ => ⟨S100000x32, .f32⟩
  | .hbm, ⟨52, _⟩ => ⟨S2500000x1, .i32⟩
  | .hbm, ⟨53, _⟩ => ⟨S100000x32, .f32⟩
  | .hbm, ⟨54, _⟩ => ⟨S100000x32, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x32, .f32⟩
  | .hbm, ⟨60, _⟩ => ⟨S100000x32, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S256x64, .f32⟩
  | .hbm, ⟨67, _⟩ => ⟨S100000x1, .i32⟩
  | .hbm, ⟨68, _⟩ => ⟨S256x64, .f32⟩
  | .hbm, ⟨69, _⟩ => ⟨S_, .f32⟩
  | .hbm, ⟨70, _⟩ => ⟨S100000, .f32⟩
  | .hbm, ⟨71, _⟩ => ⟨S_, .f32⟩
  | .hbm, ⟨72, _⟩ => ⟨S256, .f32⟩
  | .hbm, ⟨73, _⟩ => ⟨S100000x1, .i32⟩
  | .hbm, ⟨74, _⟩ => ⟨S256, .f32⟩
  | .hbm, ⟨75, _⟩ => ⟨S_, .f32⟩
  | .hbm, ⟨76, _⟩ => ⟨S256, .f32⟩
  | .hbm, ⟨77, _⟩ => ⟨S256, .f32⟩
  | .hbm, ⟨78, _⟩ => ⟨S256x1, .f32⟩
  | .hbm, ⟨79, _⟩ => ⟨S256x64, .f32⟩
  | .hbm, ⟨80, _⟩ => ⟨S256x64, .f32⟩
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S_S100000x6 : S_.BroadcastsInDim S100000x6 (![] : Fin 0 → Fin S100000x6.rank)
  bcast_S100000_S100000x1_0 : S100000.BroadcastsInDim S100000x1 (![0] : Fin 1 → Fin S100000x1.rank)
  bcast_S100000x1_S100000x6_0_1 : S100000x1.BroadcastsInDim S100000x6 (![0, 1] : Fin 2 → Fin S100000x6.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  scatter_S100000_S2500000x1_S2500000_n_0_0_1_wf : ScatterDims.WF S100000 S2500000x1 S2500000 [] [0] [0] 1
  gather_S100000x6_S2500000x1_S2500000x6_1_0_n_n_0_1_16_wf : GatherDims.WF S100000x6 S2500000x1 S2500000x6 [1] [0] [] [0] [] 1 ![1, 6]
  scatter_S100000x6_S2500000x1_S2500000x6_1_0_0_1_wf : ScatterDims.WF S100000x6 S2500000x1 S2500000x6 [1] [0] [0] 1
  dot_S100000x6_S6x32_S100000x32_1_0_0_1_n_n_wf : DotDims.WF S100000x6 S6x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x64_S100000x64_1_0_0_1_n_n_wf : DotDims.WF S100000x32 S32x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000x6_S2500000x1_S2500000x6_1_0_n_n_0_1_16 : GatherDims S100000x6 S2500000x1 S2500000x6 where
  offsetDims := [1]
  collapsedSliceDims := [0]
  operandBatchingDims := []
  startIndicesBatchingDims := []
  startIndexMap := [0]
  indexVectorDim := 1
  sliceSizes := ![1, 6]
  wf := gather_S100000x6_S2500000x1_S2500000x6_1_0_n_n_0_1_16_wf
def scatter_S100000x6_S2500000x1_S2500000x6_1_0_0_1 : ScatterDims S100000x6 S2500000x1 S2500000x6 where
  updateWindowDims := [1]
  insertedWindowDims := [0]
  scatterDimsToOperandDims := [0]
  indexVectorDim := 1
  wf := scatter_S100000x6_S2500000x1_S2500000x6_1_0_0_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.Sage.lean ====
/-
  A two-layer graph convolution followed by a mean over each graph of a batch, as functions of indices over the
  extended reals.

  A node's layer input is its own feature row plus the sum of the rows of the nodes that send it an edge, scaled by
  one over (in-degree + 1), contracted with a weight matrix, plus a bias. The scaling can be written two ways: every
  summand divided by (in-degree + 1) before the contraction (`layerQ`), or the contraction multiplied by the
  reciprocal afterwards (`layerP`). Over the reals the two agree, because a real factor moves across a finite sum;
  over the extended reals that needs every summand finite, which finite inputs give.

  The mean over a graph can also be written two ways: the sum over the graph's nodes selected by a condition
  (`poolSum`, `poolCnt`), or a sum over all nodes of the row times a 0/1 indicator (`hot`). These agree outright,
  since 0 annihilates and 1 is neutral for the product of extended reals.
-/
import Idealize.ShloMosaic.PureOps.Ideal
import Idealize.ShloMosaic.Lib.ValueIdx

noncomputable section

namespace Sage

open Idealize.ShloMosaic Idealize.ShloMosaic.ValueIdx
open scoped BigOperators

/-- The batch: nodes, edges, graphs. -/
abbrev nNodes : ℕ := 100000
abbrev nEdges : ℕ := 2500000
abbrev nGraphs : ℕ := 256

/-- A flat array of 32-bit words. -/
abbrev Words (n : ℕ) : Type := (⟨1, ![n]⟩ : Shape).Idx → BitVec 32

/-- The pattern of 1.0 denotes the real 1. -/
theorem ofBits_one : Ideal.ofBits .f32 0x3F800000#32 = 1 := by
  simp [Ideal.ofBits, Ideal.ieee, -EReal.coe_mul]; norm_num

/-- An extended real that is a real number. -/
def IsReal (z : EReal) : Prop := ∃ r : ℝ, z = (r : EReal)

/-- The node an edge reads from: its (already wrapped) source word read signed and clamped into the node range. -/
def node (w : Words nEdges) (e : Fin nEdges) : Fin nNodes :=
  ⟨min (w (ix1 e)).toInt.toNat (nNodes - 1), Nat.lt_of_le_of_lt (Nat.min_le_right _ _) (by norm_num)⟩

/-- The sum of `u` over the edges whose destination word, read signed, is node `v`; an edge whose destination is
    no node contributes nowhere. -/
def edgeSum (dst : Words nEdges) (u : Fin nEdges → EReal) (v : Fin nNodes) : EReal :=
  ∑ e : Fin nEdges, if (dst (ix1 e)).toInt = (v.val : ℤ) then u e else 0

/-- The neighbour sum of a feature table: at node `v`, column `k`, the sum over the edges into `v` of the source
    node's entry. -/
def nbr {C : ℕ} (h : Fin nNodes → Fin C → EReal) (w dst : Words nEdges) (v : Fin nNodes) (k : Fin C) : EReal :=
  edgeSum dst (fun e => h (node w e) k) v

/-- In-degree plus one. -/
def degP1 (dst : Words nEdges) (v : Fin nNodes) : EReal := edgeSum dst (fun _ => 1) v + 1

/-- Its reciprocal. -/
def recip (dst : Words nEdges) (v : Fin nNodes) : EReal := Ideal.div 1 (degP1 dst v)

/-- A layer with the division inside the contraction. -/
def layerQ {C D : ℕ} (a h : Fin nNodes → Fin C → EReal) (d : Fin nNodes → EReal) (W : Fin C → Fin D → EReal)
    (b : Fin D → EReal) (v : Fin nNodes) (j : Fin D) : EReal :=
  (∑ k : Fin C, Ideal.div (a v k + h v k) (d v) * W k j) + b j

/-- A layer with the contraction first and a row scale `r` afterwards. -/
def layerP {C D : ℕ} (a h : Fin nNodes → Fin C → EReal) (r : Fin nNodes → EReal) (W : Fin C → Fin D → EReal)
    (b : Fin D → EReal) (v : Fin nNodes) (j : Fin D) : EReal :=
  (∑ k : Fin C, (a v k + h v k) * W k j) * r v + b j

/-- The sum of a table's rows over the nodes whose graph word, read signed, is `g`. -/
def poolSum {D : ℕ} (y : Fin nNodes → Fin D → EReal) (gid : Words nNodes) (g : Fin nGraphs) (j : Fin D) : EReal :=
  ∑ v : Fin nNodes, if (gid (ix1 v)).toInt = (g.val : ℤ) then y v j else 0

/-- The number of those nodes. -/
def poolCnt (gid : Words nNodes) (g : Fin nGraphs) : EReal :=
  ∑ v : Fin nNodes, if (gid (ix1 v)).toInt = (g.val : ℤ) then 1 else 0

/-- The 0/1 indicator that a graph word is the word of `g`. -/
def hot (gw : BitVec 32) (g : Fin nGraphs) : EReal := if gw = BitVec.ofNat 32 g.val then 1 else 0

section Q
variable (x : Fin nNodes → Fin 6 → EReal) (w dst : Words nEdges) (gid : Words nNodes)
  (W1 : Fin 6 → Fin 32 → EReal) (b1 : Fin 32 → EReal) (W2 : Fin 32 → Fin 64 → EReal) (b2 : Fin 64 → EReal)

/-- The hidden table, division inside: the first layer clamped below at 0. -/
def hiddenQ (v : Fin nNodes) (j : Fin 32) : EReal := max (layerQ (nbr x w dst) x (degP1 dst) W1 b1 v j) 0

/-- The embedding table, division inside: the second layer over the hidden table. -/
def embedQ (v : Fin nNodes) (j : Fin 64) : EReal :=
  layerQ (nbr (hiddenQ x w dst W1 b1) w dst) (hiddenQ x w dst W1 b1) (degP1 dst) W2 b2 v j

/-- The mean embedding of each graph (an empty graph divides by 1), from conditional sums. -/
def resultQ (g : Fin nGraphs) (j : Fin 64) : EReal :=
  Ideal.div (poolSum (embedQ x w dst W1 b1 W2 b2) gid g j) (max (poolCnt gid g) 1)

/-- The hidden table, reciprocal outside. -/
def hiddenP (v : Fin nNodes) (j : Fin 32) : EReal := max (layerP (nbr x w dst) x (recip dst) W1 b1 v j) 0

/-- The embedding table, reciprocal outside. -/
def embedP (v : Fin nNodes) (j : Fin 64) : EReal :=
  layerP (nbr (hiddenP x w dst W1 b1) w dst) (hiddenP x w dst W1 b1) (recip dst) W2 b2 v j

/-- The mean embedding of each graph, from indicator-weighted sums over all nodes. -/
def resultP (g : Fin nGraphs) (j : Fin 64) : EReal :=
  Ideal.div (∑ v : Fin nNodes, hot (gid (ix1 v)) g * embedP x w dst W1 b1 W2 b2 v j)
    (max (∑ v : Fin nNodes, hot (gid (ix1 v)) g) 1)

end Q

end Sage

end
-- ==== Proof.SageLaws.lean ====
/-
  The two ways of writing the layers and the mean agree on finite inputs.

  Real numbers are closed under the operations the layers use (finite sums, products, maxima, division by a nonzero
  real), so every table of the computation is a table of reals once the inputs are. For reals the scale
  1/(in-degree + 1) moves across the finite contraction, which is the layer law; the indicator-weighted sums of the
  pool agree with the conditional sums outright.
-/
import proofs.«416373_j979252543708_2_alg».proof.Proof.Sage
import Idealize.ShloMosaic.PureOps.Ideal.Laws

set_option maxRecDepth 16384

noncomputable section

namespace Sage

open Idealize.ShloMosaic Idealize.ShloMosaic.ValueIdx
open scoped BigOperators

/-! ### The reals are closed under the operations used -/

theorem IsReal.zero : IsReal 0 := ⟨0, rfl⟩

theorem IsReal.one : IsReal 1 := ⟨1, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.ite {c : Prop} [Decidable c] {a b : EReal} (ha : IsReal a) (hb : IsReal b) :
    IsReal (if c then a else b) := by
  split
  · exact ha
  · exact hb

theorem IsReal.max {a b : EReal} (ha : IsReal a) (hb : IsReal b) : IsReal (max a b) := by
  rcases le_total a b with h | h
  · rw [max_eq_right h]; exact hb
  · rw [max_eq_left h]; exact ha

/-- A finite sum of reals, formed in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ i, IsReal (f i)) : IsReal (∑ i ∈ s, f i) := by
  choose φ hφ using (h : ∀ i, ∃ r : ℝ, f i = (r : EReal))
  exact ⟨∑ i ∈ s, φ i, by rw [← coe_sum]; exact Finset.sum_congr rfl (fun i _ => hφ i)⟩

/-- Division by a nonzero real keeps a real real. -/
theorem IsReal.div {a : EReal} (ha : IsReal a) {δ : ℝ} (hδ : δ ≠ 0) : IsReal (Ideal.div a (δ : EReal)) := by
  rw [Ideal.div_coe hδ]
  exact ha.mul ⟨_, rfl⟩

/-! ### Edge sums, the degree -/

theorem edgeSum_real (dst : Words nEdges) (u : Fin nEdges → EReal) (hu : ∀ e, IsReal (u e)) (v : Fin nNodes) :
    IsReal (edgeSum dst u v) := by
  unfold edgeSum
  exact IsReal.sum _ _ (fun e => (hu e).ite IsReal.zero)

theorem nbr_real {C : ℕ} (h : Fin nNodes → Fin C → EReal) (hh : ∀ v k, IsReal (h v k)) (w dst : Words nEdges)
    (v : Fin nNodes) (k : Fin C) : IsReal (nbr h w dst v k) := by
  unfold nbr
  exact edgeSum_real dst _ (fun e => hh _ _) v

/-- In-degree plus one is a real number, at least 1, so nonzero. -/
theorem degP1_real (dst : Words nEdges) (v : Fin nNodes) : ∃ δ : ℝ, δ ≠ 0 ∧ degP1 dst v = (δ : EReal) := by
  refine ⟨(∑ e : Fin nEdges, if (dst (ix1 e)).toInt = (v.val : ℤ) then (1 : ℝ) else 0) + 1, ?_, ?_⟩
  · have h0 : 0 ≤ ∑ e : Fin nEdges, if (dst (ix1 e)).toInt = (v.val : ℤ) then (1 : ℝ) else 0 :=
      Finset.sum_nonneg (fun e _ => by split <;> norm_num)
    intro h
    linarith
  · have hs : edgeSum dst (fun _ => 1) v
        = ((∑ e : Fin nEdges, if (dst (ix1 e)).toInt = (v.val : ℤ) then (1 : ℝ) else 0 : ℝ) : EReal) := by
      unfold edgeSum
      rw [← coe_sum]
      refine Finset.sum_congr rfl (fun e _ => ?_)
      by_cases hc : (dst (ix1 e)).toInt = (v.val : ℤ)
      · rw [if_pos hc, if_pos hc]; rfl
      · rw [if_neg hc, if_neg hc]; rfl
    unfold degP1
    rw [hs, EReal.coe_add, EReal.coe_one]

/-! ### The layer law -/

/-- On real tables, with a nonzero real divisor at the node, multiplying the contraction by the reciprocal is the
    contraction of the divided summands. The bias is added last on both sides and is arbitrary. -/
theorem layer_law {C D : ℕ} (a h : Fin nNodes → Fin C → EReal) (r d : Fin nNodes → EReal)
    (W : Fin C → Fin D → EReal) (b : Fin D → EReal) (ha : ∀ v k, IsReal (a v k)) (hh : ∀ v k, IsReal (h v k))
    (hW : ∀ k j, IsReal (W k j)) (v : Fin nNodes) (j : Fin D) (δ : ℝ) (hδ : δ ≠ 0) (hd : d v = (δ : EReal))
    (hr : r v = Ideal.div 1 (d v)) :
    layerP a h r W b v j = layerQ a h d W b v j := by
  unfold layerP layerQ
  congr 1
  rw [hr, hd, Ideal.div_coe hδ, one_mul]
  choose α hα using (ha v : ∀ k, ∃ s : ℝ, a v k = (s : EReal))
  choose η hη using (hh v : ∀ k, ∃ s : ℝ, h v k = (s : EReal))
  choose ω hω using (fun k => hW k j : ∀ k, ∃ s : ℝ, W k j = (s : EReal))
  simp only [hα, hη, hω, Ideal.div_coe hδ]
  simp only [← EReal.coe_add, ← EReal.coe_mul, coe_sum]
  congr 1
  rw [Finset.sum_mul]
  refine Finset.sum_congr rfl (fun k _ => ?_)
  ring

/-- A layer with the division inside is real on real tables and a real bias. -/
theorem layerQ_real {C D : ℕ} (a h : Fin nNodes → Fin C → EReal) (d : Fin nNodes → EReal)
    (W : Fin C → Fin D → EReal) (b : Fin D → EReal) (ha : ∀ v k, IsReal (a v k)) (hh : ∀ v k, IsReal (h v k))
    (hW : ∀ k j, IsReal (W k j)) (hb : ∀ j, IsReal (b j)) (v : Fin nNodes) (j : Fin D) (δ : ℝ) (hδ : δ ≠ 0)
    (hd : d v = (δ : EReal)) : IsReal (layerQ a h d W b v j) := by
  unfold layerQ
  rw [hd]
  exact (IsReal.sum _ _ (fun k => (((ha v k).add (hh v k)).div hδ).mul (hW k j))).add (hb j)

/-! ### The two tables -/

section Tables
variable (x : Fin nNodes → Fin 6 → EReal) (w dst : Words nEdges) (gid : Words nNodes)
  (W1 : Fin 6 → Fin 32 → EReal) (b1 : Fin 32 → EReal) (W2 : Fin 32 → Fin 64 → EReal) (b2 : Fin 64 → EReal)

theorem hiddenP_eq_hiddenQ (hx : ∀ v k, IsReal (x v k)) (hW1 : ∀ k j, IsReal (W1 k j)) :
    hiddenP x w dst W1 b1 = hiddenQ x w dst W1 b1 := by
  funext v j
  obtain ⟨δ, hδ, hd⟩ := degP1_real dst v
  unfold hiddenP hiddenQ
  rw [layer_law (nbr x w dst) x (recip dst) (degP1 dst) W1 b1 (nbr_real x hx w dst) hx hW1 v j δ hδ hd rfl]

theorem hiddenQ_real (hx : ∀ v k, IsReal (x v k)) (hW1 : ∀ k j, IsReal (W1 k j)) (hb1 : ∀ j, IsReal (b1 j))
    (v : Fin nNodes) (j : Fin 32) : IsReal (hiddenQ x w dst W1 b1 v j) := by
  obtain ⟨δ, hδ, hd⟩ := degP1_real dst v
  unfold hiddenQ
  exact (layerQ_real (nbr x w dst) x (degP1 dst) W1 b1 (nbr_real x hx w dst) hx hW1 hb1 v j δ hδ hd).max
    IsReal.zero

theorem embedP_eq_embedQ (hx : ∀ v k, IsReal (x v k)) (hW1 : ∀ k j, IsReal (W1 k j)) (hb1 : ∀ j, IsReal (b1 j))
    (hW2 : ∀ k j, IsReal (W2 k j)) :
    embedP x w dst W1 b1 W2 b2 = embedQ x w dst W1 b1 W2 b2 := by
  funext v j
  obtain ⟨δ, hδ, hd⟩ := degP1_real dst v
  have hH : ∀ v k, IsReal (hiddenQ x w dst W1 b1 v k) := hiddenQ_real x w dst W1 b1 hx hW1 hb1
  unfold embedP embedQ
  rw [hiddenP_eq_hiddenQ x w dst W1 b1 hx hW1]
  exact layer_law (nbr (hiddenQ x w dst W1 b1) w dst) (hiddenQ x w dst W1 b1) (recip dst) (degP1 dst) W2 b2
    (nbr_real _ hH w dst) hH hW2 v j δ hδ hd rfl

end Tables

/-! ### The pool -/

/-- A natural below 256, as a 32-bit word read signed, is itself. -/
theorem toInt_ofNat_small (n : ℕ) (h : n < 256) : (BitVec.ofNat 32 n).toInt = (n : ℤ) := by
  rw [BitVec.toInt_eq_toNat_cond, BitVec.toNat_ofNat]
  have hm : n % 2 ^ 32 = n := Nat.mod_eq_of_lt (by omega)
  rw [hm]
  split
  · rfl
  · omega

/-- The indicator of a graph word is the indicator of its signed reading. -/
theorem hot_eq (gw : BitVec 32) (g : Fin nGraphs) :
    hot gw g = if gw.toInt = (g.val : ℤ) then 1 else 0 := by
  have hg : (BitVec.ofNat 32 g.val).toInt = (g.val : ℤ) := toInt_ofNat_small g.val g.isLt
  unfold hot
  by_cases h : gw.toInt = (g.val : ℤ)
  · rw [if_pos h, if_pos (BitVec.eq_of_toInt_eq (h.trans hg.symm))]
  · rw [if_neg h, if_neg (fun (e : gw = BitVec.ofNat 32 g.val) => h (by rw [e]; exact hg))]

/-- An indicator times a value selects the value or nothing, whatever the value. -/
theorem hot_mul (gw : BitVec 32) (g : Fin nGraphs) (y : EReal) :
    hot gw g * y = if gw.toInt = (g.val : ℤ) then y else 0 := by
  rw [hot_eq]
  split
  · exact one_mul y
  · exact zero_mul y

/-- On real inputs the mean embedding written with the reciprocal outside the contractions and indicator-weighted
    sums IS the one written with every division inside and conditional sums. -/
theorem resultP_eq_resultQ (x : Fin nNodes → Fin 6 → EReal) (w dst : Words nEdges) (gid : Words nNodes)
    (W1 : Fin 6 → Fin 32 → EReal) (b1 : Fin 32 → EReal) (W2 : Fin 32 → Fin 64 → EReal) (b2 : Fin 64 → EReal)
    (hx : ∀ v k, IsReal (x v k)) (hW1 : ∀ k j, IsReal (W1 k j)) (hb1 : ∀ j, IsReal (b1 j))
    (hW2 : ∀ k j, IsReal (W2 k j)) (hb2 : ∀ j, IsReal (b2 j)) (g : Fin nGraphs) (j : Fin 64) :
    resultP x w dst gid W1 b1 W2 b2 g j = resultQ x w dst gid W1 b1 W2 b2 g j := by
  have hnum : ∑ v : Fin nNodes, hot (gid (ix1 v)) g * embedQ x w dst W1 b1 W2 b2 v j
      = ∑ v : Fin nNodes, if (gid (ix1 v)).toInt = (g.val : ℤ) then embedQ x w dst W1 b1 W2 b2 v j else 0 :=
    Finset.sum_congr rfl (fun v _ => hot_mul _ g _)
  have hden : ∑ v : Fin nNodes, hot (gid (ix1 v)) g
      = ∑ v : Fin nNodes, if (gid (ix1 v)).toInt = (g.val : ℤ) then (1 : EReal) else 0 :=
    Finset.sum_congr rfl (fun v _ => hot_eq _ g)
  unfold resultP resultQ poolSum poolCnt
  rw [embedP_eq_embedQ x w dst W1 b1 W2 b2 hx hW1 hb1 hW2, hnum, hden]

end Sage

end
-- ==== Proof.Finite.lean ====
/-
  The precondition "every float input is finite" says each entry of each float argument is a real number.

  The predicate compares, entry by entry, the absolute value |x| = max x (-x) with the pattern of +∞ by the strict
  order, folds the answers of one argument by "and" into one bit, and joins the five bits by "and". Where the result is
  1, each of the five bits is 1; a fold by "and" that ends in 1 met only 1s, so |x| < ⊤ at every entry; and of the
  three kinds of extended real only a real number satisfies that: |⊥| = |⊤| = ⊤, and ⊤ < ⊤ is false.
-/
import proofs.«416373_j979252543708_2_alg».proof.Proof.Gen.Pre_finite_inputs
import proofs.«416373_j979252543708_2_alg».proof.Proof.Sage
import Idealize.ShloMosaic.Lib.ReduceAll
import Idealize.ShloMosaic.Lib.ValueIdx
import Idealize.ShloMosaic.PureOps.Ideal.Laws

set_option maxRecDepth 16384

noncomputable section

namespace Cert.Pre_finite_inputs.Finite

open Cert.Pre_finite_inputs Idealize.ShloMosaic Idealize.ShloMosaic.ValueIdx

/-- The shape of a scalar has exactly one index. -/
instance subsingleton_scalar_idx : Subsingleton S_.Idx := ⟨fun a b => funext fun d => d.elim0⟩

/-- The pattern 0x7F800000 (sign 0, exponent all ones, mantissa 0) denotes +∞. -/
theorem ofBits_inf : Ideal.ofBits .f32 0x7F800000#32 = (⊤ : EReal) := by
  simp [Ideal.ofBits, Ideal.ieee]

/-- An extended real whose absolute value max x (-x) is strictly below +∞ is a real number: for x = ⊥ and for x = ⊤
    the absolute value is ⊤, which is not below itself. -/
theorem real_of_abs_lt_inf (x : EReal)
    (h : Ideal.cmp .olt (max x (-x)) (Ideal.ofBits .f32 0x7F800000#32) = 1#1) : Sage.IsReal x := by
  rw [ofBits_inf] at h
  induction x using EReal.rec with
  | bot => exact absurd h (by simp [Ideal.cmp])
  | coe r => exact ⟨r, rfl⟩
  | top => exact absurd h (by simp [Ideal.cmp])

/-- One argument's bit: if the fold by "and" of the entrywise answers to |x| < +∞ over a whole array is 1, every entry
    of the array is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : Sage.IsReal (x i) :=
  real_of_abs_lt_inf (x i) (Host.reduce_andi_all _ _ hr hu ix0 e i)

/-- Where the predicate is all ones, every entry of the five float arguments is a real number. -/
theorem real_of_fn [Cert.Pre_finite_inputs.Facts] (x0 : FVec Ideal S100000x6 .f32) (x1 x2 : IVec S2500000 32) (x3 : IVec S100000 32)
    (x4 : FVec Ideal S6x32 .f32) (x5 : FVec Ideal S32 .f32) (x6 : FVec Ideal S32x64 .f32) (x7 : FVec Ideal S64 .f32)
    (h : fn (F := Ideal) x0 x1 x2 x3 x4 x5 x6 x7 = fun _ => 1#1) :
    (∀ i, Sage.IsReal (x0 i)) ∧ (∀ i, Sage.IsReal (x4 i)) ∧ (∀ i, Sage.IsReal (x5 i)) ∧ (∀ i, Sage.IsReal (x6 i))
      ∧ (∀ i, Sage.IsReal (x7 i)) := by
  -- the predicate's one bit, as the "and" of the five arguments' bits
  have h0 := congrFun h ix0
  dsimp only [fn, fn_part1] at h0
  obtain ⟨h0123, b7⟩ := IntOp.andi_eq_one.1 h0
  obtain ⟨h012, b6⟩ := IntOp.andi_eq_one.1 h0123
  obtain ⟨h01, b5⟩ := IntOp.andi_eq_one.1 h012
  obtain ⟨b0, b4⟩ := IntOp.andi_eq_one.1 h01
  exact ⟨all_real x0 _ _ _ b0, all_real x4 _ _ _ b4, all_real x5 _ _ _ b5, all_real x6 _ _ _ b6,
    all_real x7 _ _ _ b7⟩

end Cert.Pre_finite_inputs.Finite

end
-- ==== Proof.KernelHostFn.lean ====
/-
  The host operations of the kernel's program around its two regions, as functions of the arrays they read.

  Before the first region: every edge's source row of the features is gathered, a column of ones is appended, and the
  seven-column rows are summed by destination node; columns 0 to 5 of the result are the neighbour sums, column 6 is
  the in-degree, and one over (in-degree + 1) is laid out as a column. Between the regions: the hidden table's rows
  are gathered by source and summed by destination again. After the second region: the per-graph sums are divided by
  the per-graph counts, a count below 1 replaced by 1.
-/
import proofs.«416373_j979252543708_2_alg».proof.Proof.Gen.KernelIdeal

noncomputable section

namespace Cert.KernelIdeal.HostFn

open Cert.KernelIdeal Cert.KernelIdeal.Gen Idealize.ShloMosaic

variable {F : FTy → Type} [FloatOps F]

/-- The source words, a negative one moved up by the number of nodes. -/
def wrap (src : IVec S2500000 32) : IVec S2500000 32 :=
  select (cmpi .slt src (broadcastInDim S2500000 ![] bcast_S_S2500000 (constantI S_ 32 0#32)))
    (addi src (broadcastInDim S2500000 ![] bcast_S_S2500000 (constantI S_ 32 100000#32))) src

/-- A flat array of edge words as a one-column table. -/
def col (w : IVec S2500000 32) : IVec S2500000x1 32 :=
  broadcastInDim S2500000x1 ![0] bcast_S2500000_S2500000x1_0 w

/-- The seven-column sums by destination: six gathered feature columns and a column of ones. -/
def aggPlus (x : FVec F S100000x6 .f32) (src dst : IVec S2500000 32) : FVec F S100000x7 .f32 :=
  Host.scatterAdd scatter_S100000x7_S2500000x1_S2500000x7_1_0_0_1
    (broadcastInDim S100000x7 ![] bcast_S_S100000x7 (constant S_ .f32 0x00000000#32))
    (col dst)
    (concatenate S2500000x7 1
      [⟨S2500000x6, Host.gather gather_S100000x6_S2500000x1_S2500000x6_1_0_n_n_0_1_16 x (col (wrap src))⟩,
       ⟨S2500000x1, broadcastInDim S2500000x1 ![] bcast_S_S2500000x1 (constant S_ .f32 0x3F800000#32)⟩]
      concatenates_S2500000x6_S2500000x1_S2500000x7_d1)

/-- Columns 0 to 5: the neighbour sums of the features. -/
def agg1 (x : FVec F S100000x6 .f32) (src dst : IVec S2500000 32) : FVec F S100000x6 .f32 :=
  extractStridedSlice S100000x6 ![0, 0] (aggPlus x src dst) slices_S100000x7_S100000x6_0_0

/-- One over (column 6 + 1), as a column. -/
def invCol (x : FVec F S100000x6 .f32) (src dst : IVec S2500000 32) : FVec F S100000x1 .f32 :=
  shapeCast S100000x1
    (Host.divf (broadcastInDim S100000 ![] bcast_S_S100000 (constant S_ .f32 0x3F800000#32))
      (addf (shapeCast S100000 (extractStridedSlice S100000x1 ![0, 6] (aggPlus x src dst) slices_S100000x7_S100000x1_0_6)
              shapeCasts_S100000x1_S100000)
        (broadcastInDim S100000 ![] bcast_S_S100000 (constant S_ .f32 0x3F800000#32))))
    shapeCasts_S100000_S100000x1

/-- The first bias as a row. -/
def biasRow1 (b1 : FVec F S32 .f32) : FVec F S1x32 .f32 := shapeCast S1x32 b1 shapeCasts_S32_S1x32

/-- The neighbour sums of the hidden table. -/
def agg2 (h : FVec F S100000x32 .bf16) (src dst : IVec S2500000 32) : FVec F S100000x32 .f32 :=
  Host.scatterAdd scatter_S100000x32_S2500000x1_S2500000x32_1_0_0_1
    (broadcastInDim S100000x32 ![] bcast_S_S100000x32 (constant S_ .f32 0x00000000#32))
    (col dst)
    (extf .f32 (Host.gather gather_S100000x32_S2500000x1_S2500000x32_1_0_n_n_0_1_132 h (col (wrap src))) bitsLt_bf16_f32)

/-- The graph words as a column. -/
def gidCol (gid : IVec S100000 32) : IVec S100000x1 32 := shapeCast S100000x1 gid shapeCasts_S100000_S100000x1

/-- The second bias as a row. -/
def biasRow2 (b2 : FVec F S64 .f32) : FVec F S1x64 .f32 := shapeCast S1x64 b2 shapeCasts_S64_S1x64

/-- The per-graph sums over the per-graph counts, a count below 1 replaced by 1. -/
def mean (sums : FVec F S256x64 .f32) (cnts : FVec F S1x256 .f32) : FVec F S256x64 .f32 :=
  Host.divf sums
    (broadcastInDim S256x64 ![0, 1] bcast_S256x1_S256x64_0_1
      (maximumf (shapeCast S256x1 cnts shapeCasts_S1x256_S256x1)
        (broadcastInDim S256x1 ![] bcast_S_S256x1 (constant S_ .f32 0x3F800000#32))))

end Cert.KernelIdeal.HostFn

end
-- ==== Proof.KernelHost.lean ====
/-
  What the kernel program's buffers hold at the boundaries between its host stretches and its two regions, as the
  host composites of the launch contents: when the first region is entered, when the second is entered, and at the
  return. A region's input arrays pass through it unchanged; its output array ends at what its write-backs leave.
-/
import proofs.«416373_j979252543708_2_alg».proof.Proof.Gen.KernelIdeal.Frame
import proofs.«416373_j979252543708_2_alg».proof.Proof.KernelHostFn
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Entering the first region -/

theorem V1_x (c : Dev nD) : V1 m ρ c main_arg0 = m ((c : Thread nD τ).loc main_arg0) := by
  show StableHlo.after hostOps0 (W0 m ρ c) (Proc.devRef .tc main_arg0) = _
  after_results_simp <;> rfl

theorem V1_W1 (c : Dev nD) : V1 m ρ c main_arg4 = m ((c : Thread nD τ).loc main_arg4) := by
  show StableHlo.after hostOps0 (W0 m ρ c) (Proc.devRef .tc main_arg4) = _
  after_results_simp <;> rfl

set_option maxHeartbeats 8000000 in
theorem V1_agg (c : Dev nD) : V1 m ρ c main_v12
    = HostFn.agg1 (m ((c : Thread nD τ).loc main_arg0)) (m ((c : Thread nD τ).loc main_arg1)) (m ((c : Thread nD τ).loc main_arg2)) := by
  show StableHlo.after hostOps0 (W0 m ρ c) (Proc.devRef .tc main_v12) = _
  after_results_simp <;> rfl

set_option maxHeartbeats 8000000 in
theorem V1_inv (c : Dev nD) : V1 m ρ c main_v19
    = HostFn.invCol (m ((c : Thread nD τ).loc main_arg0)) (m ((c : Thread nD τ).loc main_arg1)) (m ((c : Thread nD τ).loc main_arg2)) := by
  show StableHlo.after hostOps0 (W0 m ρ c) (Proc.devRef .tc main_v19) = _
  after_results_simp <;> rfl

theorem V1_b1 (c : Dev nD) : V1 m ρ c main_v20 = HostFn.biasRow1 (m ((c : Thread nD τ).loc main_arg5)) := by
  show StableHlo.after hostOps0 (W0 m ρ c) (Proc.devRef .tc main_v20) = _
  after_results_simp <;> rfl

/-! ## Leaving the first region: its output at what the write-backs leave, every other buffer as entered -/

theorem W2_hid (c : Dev nD) : W2 m ρ c (Proc.devRef .tc main_v21) = (dat0 (V1 m ρ) c).arrAt 5 cfg0.N :=
  W2_arr m ρ c 5

theorem W2_inv (c : Dev nD) : W2 m ρ c (Proc.devRef .tc main_v19) = V1 m ρ c main_v19 :=
  (W2_arr m ρ c 2).trans (((dat0 (V1 m ρ) c).arrAt_in 2 rfl _).trans (A_eq0 (V1 m ρ) c 2))

theorem W2_src (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)

theorem W2_dst (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)

theorem W2_gid (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)

theorem W2_W2 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_b2 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-! ## Entering the second region -/

theorem V3_hid (c : Dev nD) : V3 m ρ c main_v21 = (dat0 (V1 m ρ) c).arrAt 5 cfg0.N := by
  show StableHlo.after hostOps1 (W2 m ρ c) (Proc.devRef .tc main_v21) = _
  after_results_simp
  exact W2_hid m ρ c

theorem V3_inv (c : Dev nD) : V3 m ρ c main_v19
    = HostFn.invCol (m ((c : Thread nD τ).loc main_arg0)) (m ((c : Thread nD τ).loc main_arg1)) (m ((c : Thread nD τ).loc main_arg2)) := by
  show StableHlo.after hostOps1 (W2 m ρ c) (Proc.devRef .tc main_v19) = _
  after_results_simp
  exact (W2_inv m ρ c).trans (V1_inv m ρ c)

theorem V3_W2 (c : Dev nD) : V3 m ρ c main_arg6 = m ((c : Thread nD τ).loc main_arg6) := by
  show StableHlo.after hostOps1 (W2 m ρ c) (Proc.devRef .tc main_arg6) = _
  after_results_simp
  exact W2_W2 m ρ c

set_option maxHeartbeats 8000000 in
theorem V3_agg2 (c : Dev nD) : V3 m ρ c main_v32
    = HostFn.agg2 ((dat0 (V1 m ρ) c).arrAt 5 cfg0.N) (m ((c : Thread nD τ).loc main_arg1)) (m ((c : Thread nD τ).loc main_arg2)) := by
  show StableHlo.after hostOps1 (W2 m ρ c) (Proc.devRef .tc main_v32) = _
  after_results_simp
  rw [W2_hid m ρ c, W2_src m ρ c, W2_dst m ρ c]
  rfl

theorem V3_gid (c : Dev nD) : V3 m ρ c main_v33 = HostFn.gidCol (m ((c : Thread nD τ).loc main_arg3)) := by
  show StableHlo.after hostOps1 (W2 m ρ c) (Proc.devRef .tc main_v33) = _
  after_results_simp
  rw [W2_gid m ρ c]
  rfl

theorem V3_b2 (c : Dev nD) : V3 m ρ c main_v34 = HostFn.biasRow2 (m ((c : Thread nD τ).loc main_arg7)) := by
  show StableHlo.after hostOps1 (W2 m ρ c) (Proc.devRef .tc main_v34) = _
  after_results_simp
  rw [W2_b2 m ρ c]
  rfl

/-! ## At the return -/

theorem W5_out (c : Dev nD) : W5 m ρ c (Proc.devRef .tc main_v40)
    = HostFn.mean ((dat1 (V3 m ρ) c).arrAt 6 cfg1.N) ((dat1 (V3 m ρ) c).arrAt 7 cfg1.N) := by
  show StableHlo.after hostOps2 (W4 m ρ c) (Proc.devRef .tc main_v40) = _
  after_results_simp
  rw [show W4 m ρ c (Proc.devRef .tc main_v35_0) = (dat1 (V3 m ρ) c).arrAt 6 cfg1.N from W4_arr m ρ c 6,
    show W4 m ρ c (Proc.devRef .tc main_v35_1) = (dat1 (V3 m ρ) c).arrAt 7 cfg1.N from W4_arr m ρ c 7]
  rfl

end Cert.KernelIdeal.Boundary

end
-- ==== Proof.LibScatterRows.lean ====
/-
  The host's accumulating scatter over the extended reals, read at an index, for the two layouts a segment sum
  prints as: a vector of N sums fed by E scalars, and an N x C table of sums fed by E rows of C entries; in both
  the scatter indices are an E x 1 column naming, per update, the operand's position on axis 0. An update lands at
  the position its index names, read signed; an index outside [0, N) drops its update.
-/
import Idealize.ShloMosaic.PureOps.Ideal
import Idealize.ShloMosaic.PureOps.Contract
import Idealize.ShloMosaic.Lib.ValueIdx

set_option maxRecDepth 16384

noncomputable section

namespace Cert.LibScatterRows

open Idealize.ShloMosaic Idealize.ShloMosaic.ValueIdx
open scoped BigOperators

/-- An accumulating scatter's update lands at operand index `i` exactly when, on every axis, the window's start plus
    the window coordinate is `i`'s coordinate. -/
private theorem resultIdx?_eq_some_iff {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have := h a
      omega
    · intro hf
      funext a
      apply Fin.ext
      have := hf a
      show (d.start j idx a + (d.window j a : ℤ)).toNat = (i a).val
      omega
  · rename_i h
    constructor
    · intro hf
      exact absurd hf (by simp)
    · intro hf
      exfalso
      apply h
      intro a
      have := hf a
      have := (i a).isLt
      omega

/-- A rank-1 index set is its one coordinate's range. -/
private def idxEquiv1 {n : ℕ} : (⟨1, ![n]⟩ : Shape).Idx ≃ Fin n where
  toFun i := i 0
  invFun a := ix1 a
  left_inv i := (eq_ix1 i).symm
  right_inv _ := rfl

/-- A sum over a rank-1 index set is the sum over the coordinate. -/
private theorem sum_idx1 {M : Type*} [AddCommMonoid M] {n : ℕ} (f : (⟨1, ![n]⟩ : Shape).Idx → M) :
    ∑ i, f i = ∑ a : Fin n, f (ix1 a) :=
  (Equiv.sum_comp (idxEquiv1 (n := n)).symm f).symm

/-! ### The vector layout -/

/-- The vector layout's dimension numbers as a literal record, over any proof that they are well formed. -/
private abbrev litV {N E : ℕ} (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  ⟨[], [0], [0], 1, wf⟩

section Vec
variable {N E w : ℕ} (wf : ScatterDims.WF ⟨1, ![N]⟩ ⟨2, ![E, 1]⟩ ⟨1, ![E]⟩ [] [0] [0] 1)

/-- Update e reads row e of the column of indices. -/
private theorem siIdx_V (j : (⟨1, ![E]⟩ : Shape).Idx) (c : Fin (litV wf).scatterDimsToOperandDims.length) :
    (litV wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- On axis 0 the window starts at the index word, read signed. -/
private theorem start_V0 (j : (⟨1, ![E]⟩ : Shape).Idx) (idx : IVec ⟨2, ![E, 1]⟩ w) :
    (litV wf).start j idx 0 = (idx (ix2 (j 0) (0 : Fin 1))).toInt := by
  unfold ScatterDims.start
  rw [dif_pos (show (0 : Fin (⟨1, ![N]⟩ : Shape).rank) ∈ (litV wf).scatterDimsToOperandDims from List.mem_singleton.mpr rfl)]
  rw [siIdx_V]
  rfl

/-- Axis 0 is inserted: no window coordinate. -/
private theorem window_V0 (j : (⟨1, ![E]⟩ : Shape).Idx) : (litV wf).window j 0 = 0 := by
  unfold ScatterDims.window
  rw [dif_neg (show ¬(0 : Fin (⟨1, ![N]⟩ : Shape).rank) ∈ (litV wf).sKept from List.not_mem_nil)]

/-- Update j lands at position r exactly when its index word, read signed, is r. -/
private theorem lands_V (j : (⟨1, ![E]⟩ : Shape).Idx) (idx : IVec ⟨2, ![E, 1]⟩ w) (r : Fin N) :
    (litV wf).resultIdx? j idx = some (ix1 r) ↔ (idx (ix2 (j 0) (0 : Fin 1))).toInt = (r.val : ℤ) := by
  rw [resultIdx?_eq_some_iff]
  constructor
  · intro h
    have h0 := h 0
    rw [start_V0, window_V0] at h0
    simp only [Nat.cast_zero, add_zero] at h0
    exact h0
  · intro h a
    match a with
    | ⟨0, _⟩ =>
      have e1 := start_V0 wf j idx
      have e2 := window_V0 wf j
      show (litV wf).start j idx 0 + (((litV wf).window j 0 : ℕ) : ℤ) = (r.val : ℤ)
      rw [e1, e2, h]
      simp

end Vec

/-! ### The table layout -/

/-- The table layout's dimension numbers as a literal record, over any proof that they are well formed. -/
private abbrev litT {N C E : ℕ} (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

section Tab
variable {N C E w : ℕ} (wf : ScatterDims.WF ⟨2, ![N, C]⟩ ⟨2, ![E, 1]⟩ ⟨2, ![E, C]⟩ [1] [0] [0] 1)

/-- The row (e, ·) of updates reads row e of the column of indices. -/
private theorem siIdx_T (j : (⟨2, ![E, C]⟩ : Shape).Idx) (c : Fin (litT wf).scatterDimsToOperandDims.length) :
    (litT wf).siIdx j c = ix2 (j 0) (0 : Fin 1) := by
  funext b
  match b with
  | ⟨0, _⟩ =>
    unfold ScatterDims.siIdx
    rw [dif_neg (by exact Nat.zero_ne_one)]
    unfold ScatterDims.siCoord
    apply Fin.ext
    simp only [Fin.val_cast]
    rfl
  | ⟨1, _⟩ =>
    unfold ScatterDims.siIdx
    rw [dif_pos rfl]
    apply Fin.ext
    show c.val = 0
    have : c.val < 1 := c.isLt
    omega

/-- The operand's one axis that is not inserted is axis 1. -/
private theorem sKept_T : (litT wf).sKept = [1] := rfl

/-- On axis 0 the window starts at the index word, read signed. -/
private theorem start_T0 (j : (⟨2, ![E, C]⟩ : Shape).Idx) (idx : IVec ⟨2, ![E, 1]⟩ w) :
    (litT wf).start j idx 0 = (idx (ix2 (j 0) (0 : Fin 1))).toInt := by
  unfold ScatterDims.start
  rw [dif_pos (show (0 : Fin (⟨2, ![N, C]⟩ : Shape).rank) ∈ (litT wf).scatterDimsToOperandDims from List.mem_singleton.mpr rfl)]
  rw [siIdx_T]
  rfl

/-- Axis 1 is named by no index: its window starts at 0. -/
private theorem start_T1 (j : (⟨2, ![E, C]⟩ : Shape).Idx) (idx : IVec ⟨2, ![E, 1]⟩ w) :
    (litT wf).start j idx 1 = 0 := by
  unfold ScatterDims.start
  rw [dif_neg (show ¬(1 : Fin (⟨2, ![N, C]⟩ : Shape).rank) ∈ (litT wf).scatterDimsToOperandDims by
    rw [List.mem_singleton]; intro e; exact Nat.one_ne_zero (congrArg Fin.val e))]

/-- Axis 0 is inserted: no window coordinate. -/
private theorem window_T0 (j : (⟨2, ![E, C]⟩ : Shape).Idx) : (litT wf).window j 0 = 0 := by
  unfold ScatterDims.window
  rw [dif_neg (show ¬(0 : Fin (⟨2, ![N, C]⟩ : Shape).rank) ∈ (litT wf).sKept by
    rw [sKept_T, List.mem_singleton]; intro e; exact Nat.zero_ne_one (congrArg Fin.val e))]

/-- Axis 1 is the window axis: its window coordinate is the update's column. -/
private theorem window_T1 (j : (⟨2, ![E, C]⟩ : Shape).Idx) : (litT wf).window j 1 = (j 1).val := by
  unfold ScatterDims.window
  rw [dif_pos (show (1 : Fin (⟨2, ![N, C]⟩ : Shape).rank) ∈ (litT wf).sKept by
    rw [sKept_T]; exact List.mem_singleton.mpr rfl)]
  rfl

/-- Update (e, c') lands at (r, c) exactly when e's index word, read signed, is r and c' is c. -/
private theorem lands_T (j : (⟨2, ![E, C]⟩ : Shape).Idx) (idx : IVec ⟨2, ![E, 1]⟩ w) (r : Fin N) (c : Fin C) :
    (litT wf).resultIdx? j idx = some (ix2 r c)
      ↔ (idx (ix2 (j 0) (0 : Fin 1))).toInt = (r.val : ℤ) ∧ (j 1).val = c.val := by
  rw [resultIdx?_eq_some_iff]
  constructor
  · intro h
    have h0 := h 0
    have h1 := h 1
    rw [start_T0, window_T0] at h0
    rw [start_T1, window_T1] at h1
    simp only [Nat.cast_zero, add_zero] at h0
    have h1' : ((j 1).val : ℤ) = (c.val : ℤ) := by
      simp only [zero_add] at h1
      exact h1
    exact ⟨h0, by exact_mod_cast h1'⟩
  · intro h a
    match a with
    | ⟨0, _⟩ =>
      have e1 := start_T0 wf j idx
      have e2 := window_T0 wf j
      show (litT wf).start j idx 0 + (((litT wf).window j 0 : ℕ) : ℤ) = (r.val : ℤ)
      rw [e1, e2, h.1]
      simp
    | ⟨1, _⟩ =>
      have e1 := start_T1 wf j idx
      have e2 := window_T1 wf j
      show (litT wf).start j idx 1 + (((litT wf).window j 1 : ℕ) : ℤ) = (c.val : ℤ)
      rw [e1, e2, h.2]
      simp

end Tab

/-- A VECTOR of sums. Operand [N], scatter indices [E, 1], updates [E]; no window axis, axis 0 inserted and named by
    the index vector's one component. Entry r is the operand's entry plus the sum of the updates whose index is r. -/
theorem scatterAdd_vec_apply {N E w : ℕ} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (r : Fin N) :
    Host.scatterAdd (F := Ideal) d x idx upd (ix1 r)
      = x (ix1 r) + ∑ e : Fin E, if (idx (ix2 e (0 : Fin 1))).toInt = (r.val : ℤ) then upd (ix1 e) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx1]
  refine Finset.sum_congr rfl fun e _ => ?_
  exact if_congr (lands_V wf (ix1 e) idx r) rfl rfl

/-- A TABLE of row sums. Operand [N, C], scatter indices [E, 1], updates [E, C]; the updates' axis 1 is the window
    axis, the operand's axis 0 is inserted and named by the index vector's one component. Entry (r, j) is the
    operand's entry plus the sum, over the updates whose index is r, of their entry j. -/
theorem scatterAdd_rows_apply {N C E w : ℕ} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1)
    (x : FVec Ideal ⟨2, ![N, C]⟩ .f32) (idx : IVec ⟨2, ![E, 1]⟩ w) (upd : FVec Ideal ⟨2, ![E, C]⟩ .f32) (r : Fin N) (j : Fin C) :
    Host.scatterAdd (F := Ideal) d x idx upd (ix2 r j)
      = x (ix2 r j) + ∑ e : Fin E, if (idx (ix2 e (0 : Fin 1))).toInt = (r.val : ℤ) then upd (ix2 e j) else 0 := by
  obtain ⟨uw, iw, sd, iv, wf⟩ := d
  simp only at huw hiw hsd hiv
  subst huw hiw hsd hiv
  simp only [Host.scatterAdd, Ideal.hostScatterAdd_def, Ideal.hostScatterAdd]
  congr 1
  rw [Finset.sum_filter, sum_idx2]
  refine Finset.sum_congr rfl fun e _ => ?_
  -- the inner sum over the update's column keeps the one column j
  by_cases he : (idx (ix2 e (0 : Fin 1))).toInt = (r.val : ℤ)
  · rw [if_pos he]
    rw [Finset.sum_eq_single j]
    · exact if_pos ((lands_T wf (ix2 e j) idx r j).mpr ⟨he, rfl⟩)
    · intro c' _ hc'
      exact if_neg fun h => hc' (Fin.ext ((lands_T wf (ix2 e c') idx r j).mp h).2)
    · intro h
      exact absurd (Finset.mem_univ j) h
  · rw [if_neg he]
    refine Finset.sum_eq_zero fun c' _ => ?_
    exact if_neg fun h => he ((lands_T wf (ix2 e c') idx r j).mp h).1

end Cert.LibScatterRows

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.KernelEdges.lean ====
/-
  The kernel program's host operations around its regions, read at an index.
-/
import proofs.«416373_j979252543708_2_alg».proof.Proof.KernelHostFn
import proofs.«416373_j979252543708_2_alg».proof.Proof.Sage
import proofs.«416373_j979252543708_2_alg».proof.Proof.LibScatterRows
import proofs.«416373_j979252543708_2_alg».proof.Proof.LibGatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Edges

open Cert.KernelIdeal Cert.KernelIdeal.Gen Idealize.ShloMosaic Idealize.ShloMosaic.ValueIdx
open scoped BigOperators

/-! ### Small readings shared by the theorems below -/

/-- A flat array of edge words laid out as a one-column table reads, at row e, the array at e. -/
theorem col_apply (w : IVec S2500000 32) (e : Fin 2500000) : HostFn.col w (ix2 e 0) = w (ix1 e) := by
  unfold HostFn.col
  refine broadcastInDim_apply _ _ _ _ (ix1 e) (fun a => ?_)
  match a with
  | ⟨0, _⟩ =>
    show e.val = if (2500000 : ℕ) = 1 then 0 else e.val
    rw [if_neg (by decide)]

/-- The host's division at an index is the division of the entries. -/
theorem hostDivf_apply {s : Shape} {φ : FTy} (a b : FVec Ideal s φ) (i : s.Idx) :
    Host.divf a b i = Ideal.div (a i) (b i) := rfl

/-- The splat of the pattern of 1.0 reads 1 everywhere. -/
theorem ones_apply {t : Shape} (h : S_.BroadcastsInDim t (![] : Fin 0 → Fin t.rank)) (i : t.Idx) :
    broadcastInDim t ![] h (constant (F := Ideal) S_ .f32 0x3F800000#32) i = 1 := Sage.ofBits_one

/-- The splat of the zero pattern reads 0 everywhere. -/
theorem zeros_apply {t : Shape} (h : S_.BroadcastsInDim t (![] : Fin 0 → Fin t.rank)) (i : t.Idx) :
    broadcastInDim t ![] h (constant (F := Ideal) S_ .f32 0x00000000#32) i = 0 := Ideal.ofBits_zero_f32

/-- The seven-column sums read at an entry: the sum, over the edges whose destination is the row, of the
    edge's seven-column entry (the table the sums start from is all zero). -/
theorem aggPlus_apply (x : FVec Ideal S100000x6 .f32) (src dst : IVec S2500000 32) (v : Fin 100000) (c : Fin 7) :
    HostFn.aggPlus (F := Ideal) x src dst (ix2 v c)
      = ∑ e : Fin 2500000, if (dst (ix1 e)).toInt = (v.val : ℤ) then
          (concatenate S2500000x7 1
            [⟨S2500000x6, Host.gather gather_S100000x6_S2500000x1_S2500000x6_1_0_n_n_0_1_16 x (HostFn.col (HostFn.wrap src))⟩,
             ⟨S2500000x1, broadcastInDim S2500000x1 ![] bcast_S_S2500000x1 (constant (F := Ideal) S_ .f32 0x3F800000#32)⟩]
            concatenates_S2500000x6_S2500000x1_S2500000x7_d1) (ix2 e c) else 0 := by
  unfold HostFn.aggPlus
  refine (Cert.LibScatterRows.scatterAdd_rows_apply _ rfl rfl rfl rfl _ _ _ v c).trans ?_
  have hz : (broadcastInDim S100000x7 ![] bcast_S_S100000x7 (constant (F := Ideal) S_ .f32 0x00000000#32)) (ix2 v c) = 0 :=
    Ideal.ofBits_zero_f32
  rw [hz, zero_add]
  refine Finset.sum_congr rfl fun e _ => ?_
  rw [col_apply]

/-- Columns 0 to 5 of the seven-column sums are the neighbour sums of the features. -/
theorem agg1_apply (x : FVec Ideal S100000x6 .f32) (src dst : IVec S2500000 32) (v : Fin 100000) (k : Fin 6) :
    HostFn.agg1 (F := Ideal) x src dst (ix2 v k) = Sage.nbr (fun v k => x (ix2 v k)) (HostFn.wrap src) dst v k := by
  unfold HostFn.agg1
  have hk7 : k.val < 7 := by have := k.isLt; omega
  refine (slice2_axis1_apply 0 _ _ v k ⟨k.val, hk7⟩ (Nat.zero_add _).symm).trans ?_
  rw [aggPlus_apply]
  show _ = Sage.edgeSum dst (fun e => x (ix2 (Sage.node (HostFn.wrap src) e) k)) v
  unfold Sage.edgeSum
  refine Finset.sum_congr rfl fun e _ => ?_
  refine if_congr Iff.rfl ?_ rfl
  -- the entry falls in the first piece: the gathered feature row
  refine (concatenate_pair_apply_left (t := S2500000x7) (s₁ := S2500000x6) (s₂ := S2500000x1) 1 _ _ _
    (ix2 e ⟨k.val, hk7⟩) rfl (ix2 e k) (fun b => ?_)).trans ?_
  · match b with
    | ⟨0, _⟩ => rfl
    | ⟨1, _⟩ => rfl
  refine (Cert.LibGatherRows.gather_rows _ rfl rfl rfl rfl rfl rfl _ _ e k (by norm_num)).trans ?_
  refine congrArg (fun n => x (ix2 n k)) (Fin.ext ?_)
  show min (HostFn.col (HostFn.wrap src) (ix2 e 0)).toInt.toNat (100000 - 1) = min (HostFn.wrap src (ix1 e)).toInt.toNat (100000 - 1)
  rw [col_apply]

/-- Column 6 is the in-degree, so the column of reciprocals holds one over (in-degree + 1). -/
theorem invCol_apply (x : FVec Ideal S100000x6 .f32) (src dst : IVec S2500000 32) (v : Fin 100000) :
    HostFn.invCol (F := Ideal) x src dst (ix2 v 0) = Sage.recip dst v := by
  unfold HostFn.invCol
  refine (shapeCast_apply _ _ _ (ix1 v) ?_).trans ?_
  · rw [Shape.rowMajor_val_two, Shape.rowMajor_val_one]
    show v.val = v.val * 1 + 0
    omega
  rw [hostDivf_apply, addf_apply, ones_apply]
  unfold Sage.recip Sage.degP1 Sage.edgeSum
  refine congrArg (fun z => Ideal.div 1 (z + 1)) ?_
  refine (shapeCast_apply _ _ _ (ix2 v 0) ?_).trans ?_
  · rw [Shape.rowMajor_val_two, Shape.rowMajor_val_one]
    show v.val * 1 + 0 = v.val
    omega
  refine (slice2_axis1_apply 6 _ _ v 0 6 rfl).trans ?_
  rw [aggPlus_apply]
  refine Finset.sum_congr rfl fun e _ => ?_
  refine if_congr Iff.rfl ?_ rfl
  -- the entry falls in the second piece: the column of ones
  refine (concatenate_pair_apply_right (t := S2500000x7) (s₁ := S2500000x6) (s₂ := S2500000x1) 1 _ _ _
    (ix2 e 6) rfl rfl (ix2 e 0) (fun b hb => ?_) rfl).trans Sage.ofBits_one
  match b with
  | ⟨0, _⟩ => rfl
  | ⟨1, _⟩ => exact absurd rfl hb

theorem biasRow1_apply (b1 : FVec Ideal S32 .f32) (j : Fin 32) : HostFn.biasRow1 (F := Ideal) b1 (ix2 0 j) = b1 (ix1 j) := by
  unfold HostFn.biasRow1
  exact shapeCast_a_1a_apply b1 _ 0 j

/-- The second gather and sum by destination are the neighbour sums of the hidden table. -/
theorem agg2_apply (h : FVec Ideal S100000x32 .bf16) (src dst : IVec S2500000 32) (v : Fin 100000) (k : Fin 32) :
    HostFn.agg2 (F := Ideal) h src dst (ix2 v k) = Sage.nbr (fun v k => h (ix2 v k)) (HostFn.wrap src) dst v k := by
  unfold HostFn.agg2
  refine (Cert.LibScatterRows.scatterAdd_rows_apply _ rfl rfl rfl rfl _ _ _ v k).trans ?_
  have hz : (broadcastInDim S100000x32 ![] bcast_S_S100000x32 (constant (F := Ideal) S_ .f32 0x00000000#32)) (ix2 v k) = 0 :=
    Ideal.ofBits_zero_f32
  rw [hz, zero_add]
  show _ = Sage.edgeSum dst (fun e => h (ix2 (Sage.node (HostFn.wrap src) e) k)) v
  unfold Sage.edgeSum
  refine Finset.sum_congr rfl fun e _ => ?_
  rw [col_apply]
  refine if_congr Iff.rfl ?_ rfl
  -- widening the format changes nothing over the extended reals
  show Host.gather gather_S100000x32_S2500000x1_S2500000x32_1_0_n_n_0_1_132 h (HostFn.col (HostFn.wrap src)) (ix2 e k) = _
  refine (Cert.LibGatherRows.gather_rows _ rfl rfl rfl rfl rfl rfl _ _ e k (by norm_num)).trans ?_
  refine congrArg (fun n => h (ix2 n k)) (Fin.ext ?_)
  show min (HostFn.col (HostFn.wrap src) (ix2 e 0)).toInt.toNat (100000 - 1) = min (HostFn.wrap src (ix1 e)).toInt.toNat (100000 - 1)
  rw [col_apply]

theorem gidCol_apply (gid : IVec S100000 32) (v : Fin 100000) : HostFn.gidCol gid (ix2 v 0) = gid (ix1 v) := by
  unfold HostFn.gidCol
  refine shapeCast_apply gid _ _ (ix1 v) ?_
  rw [Shape.rowMajor_val_two, Shape.rowMajor_val_one]
  show v.val = v.val * 1 + 0
  omega

theorem biasRow2_apply (b2 : FVec Ideal S64 .f32) (j : Fin 64) : HostFn.biasRow2 (F := Ideal) b2 (ix2 0 j) = b2 (ix1 j) := by
  unfold HostFn.biasRow2
  exact shapeCast_a_1a_apply b2 _ 0 j

/-- The closing division: sums over counts, a count below 1 replaced by 1. -/
theorem mean_apply (sums : FVec Ideal S256x64 .f32) (cnts : FVec Ideal S1x256 .f32) (g : Fin 256) (j : Fin 64) :
    HostFn.mean (F := Ideal) sums cnts (ix2 g j) = Ideal.div (sums (ix2 g j)) (max (cnts (ix2 0 g)) 1) := by
  unfold HostFn.mean
  rw [hostDivf_apply]
  refine congrArg (fun z => Ideal.div (sums (ix2 g j)) z) ?_
  refine (broadcastInDim_apply _ _ _ _ (ix2 g 0) (fun a => ?_)).trans ?_
  · match a with
    | ⟨0, _⟩ =>
      show g.val = if (256 : ℕ) = 1 then 0 else g.val
      rw [if_neg (by decide)]
    | ⟨1, _⟩ =>
      show 0 = if (1 : ℕ) = 1 then 0 else j.val
      rw [if_pos rfl]
  rw [maximumf_apply, ones_apply]
  refine congrArg (fun z => max z 1) ?_
  refine shapeCast_apply cnts _ _ (ix2 0 g) ?_
  rw [Shape.rowMajor_val_two, Shape.rowMajor_val_two]
  show 0 * 256 + g.val = g.val * 1 + 0
  omega

end Cert.KernelIdeal.Edges

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.KernelLayer1.lean ====
/-
  The kernel's first region: what the hidden table holds after the run.

  The region walks the 100000 nodes in 25 blocks of 4000 rows. At each block it adds the two [4000, 6] feature
  blocks, contracts the sum with the whole [6, 32] weight matrix, scales row r by the r-th entry of the [4000, 1]
  scale block, adds the [1, 32] bias row, clamps below at 0, and writes the [4000, 32] result to the same rows of
  the hidden table. Over the extended reals the format changes are the identity, so entry (r, j) of a block's
  result is
      max ((∑ k, (a (r, k) + h (r, k)) · W (k, j)) · s (r, 0) + b (0, j)) 0.
  Block t of each row-indexed array is rows 4000 t … 4000 t + 3999 of it, and the weight and bias blocks are the
  whole arrays, so what point t writes is rows 4000 t … 4000 t + 3999 of ONE function of the table's index; the 25
  blocks cover every row (row v lies in block v / 4000), so the table ends holding that function.
-/
import proofs.«416373_j979252543708_2_alg».proof.Proof.Gen.KernelIdeal.Frame
import proofs.«416373_j979252543708_2_alg».proof.Proof.Sage
import proofs.«416373_j979252543708_2_alg».proof.Proof.LibContract
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## One block's arithmetic at an entry -/

/-- The offsets of a whole-buffer access are zero on both axes. -/
theorem zeroOffsets : (![0, 0] : Fin 2 → Nat) = fun _ => 0 := funext fun a => by fin_cases a <;> rfl

/-- A column [a, 1] broadcast to [a, b] reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    -- the row axis: kept, unless it has extent 1, and then the one row is row 0 = p
    show p.val = if a = 1 then 0 else p.val
    split
    · have := p.isLt; omega
    · rfl
  | ⟨1, _⟩ => rfl

/-- Entry (r, j) of what a block's body computes from its five input blocks: the two feature blocks added and
    contracted with the weights along the 6 columns, times the row's scale, plus the bias, clamped below at 0.
    The narrowing format changes are the identity on extended reals and the accumulator starts at the real 0. -/
theorem firstLayer_block_apply (x0 x1 : Vec Ideal S4000x6 .f32) (x2 : Vec Ideal S4000x1 .f32) (x3 : Vec Ideal S6x32 .f32)
    (x4 : Vec Ideal S1x32 .f32) (r : Fin 4000) (j : Fin 32) :
    k0_pay1 x0 x1 x3 x2 x4 (ix2 r j)
      = max ((∑ k : Fin 6, (x0 (ix2 r k) + x1 (ix2 r k)) * x3 (ix2 k j)) * x2 (ix2 r 0) + x4 (ix2 0 j)) 0 := by
  unfold k0_pay1
  -- the pointwise operations, outermost first
  rw [truncf_apply, maximumf_apply, addf_apply, mulf_apply, broadcast_apply]
  -- the [4000, 6] × [6, 32] product into zeros is the sum over the 6 contracted positions
  rw [Cert.LibContract.matmul_plain dot_S4000x6_S6x32_S4000x32_1_0_0_1_n_n rfl rfl rfl rfl rfl rfl none _ _ r j]
  -- the scale column and the bias row, each read where the broadcast puts it
  rw [broadcastTo_a1_ab_apply, broadcastTo_1b_ab_apply]
  simp only [truncf_apply, addf_apply, shapeCast_self, Ideal.ofBits_def, Ideal.ofBits_zero_f32]

/-! ## Which rows each block is -/

/-- The block indices of the six windows at point t, decided over the 25 points: the three row-indexed inputs and
    the output sit at row block t, column block 0; the weights and the bias are always block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the first feature table, at (r, k), is the table at row 4000 t + r: a block's coordinate on an axis
    is the block index times the block's extent plus the coordinate inside the block. -/
theorem features0_block_apply (c : Dev nD) (t : Fin cfg0.N) (r : Fin 4000) (k : Fin 6) (v : Fin 100000)
    (hv : v.val = t.val * 4000 + r.val) :
    (iblk0 V c 0 t : Vec Ideal S4000x6 .f32) (ix2 r k) = (V c main_v12 : S100000x6.Idx → EReal) (ix2 v k) := by
  obtain ⟨e0, e1, -⟩ := block_indices t
  show (V c main_v12 : S100000x6.Idx → EReal) (((cfg0.win 0).blk t).view.emb (ix2 r k)) = _
  refine congrArg _ (funext fun a => Fin.ext ?_)
  match a with
  | ⟨0, _⟩ => show win0_0.index t (0 : Fin 2) * 4000 + 1 * r.val = v.val; omega
  | ⟨1, _⟩ => show win0_0.index t (1 : Fin 2) * 6 + 1 * k.val = k.val; omega

/-- Block t of the second feature table, at (r, k), is the table at row 4000 t + r. -/
theorem features1_block_apply (c : Dev nD) (t : Fin cfg0.N) (r : Fin 4000) (k : Fin 6) (v : Fin 100000)
    (hv : v.val = t.val * 4000 + r.val) :
    (iblk0 V c 1 t : Vec Ideal S4000x6 .f32) (ix2 r k) = (V c main_arg0 : S100000x6.Idx → EReal) (ix2 v k) := by
  obtain ⟨-, -, e0, e1, -⟩ := block_indices t
  show (V c main_arg0 : S100000x6.Idx → EReal) (((cfg0.win 1).blk t).view.emb (ix2 r k)) = _
  refine congrArg _ (funext fun a => Fin.ext ?_)
  match a with
  | ⟨0, _⟩ => show win0_1.index t (0 : Fin 2) * 4000 + 1 * r.val = v.val; omega
  | ⟨1, _⟩ => show win0_1.index t (1 : Fin 2) * 6 + 1 * k.val = k.val; omega

/-- Block t of the scale column, at (r, 0), is the column at row 4000 t + r. -/
theorem scale_block_apply (c : Dev nD) (t : Fin cfg0.N) (r : Fin 4000) (v : Fin 100000)
    (hv : v.val = t.val * 4000 + r.val) :
    (iblk0 V c 2 t : Vec Ideal S4000x1 .f32) (ix2 r 0) = (V c main_v19 : S100000x1.Idx → EReal) (ix2 v 0) := by
  obtain ⟨-, -, -, -, e0, e1, -⟩ := block_indices t
  show (V c main_v19 : S100000x1.Idx → EReal) (((cfg0.win 2).blk t).view.emb (ix2 r 0)) = _
  refine congrArg _ (funext fun a => Fin.ext ?_)
  match a with
  | ⟨0, _⟩ => show win0_2.index t (0 : Fin 2) * 4000 + 1 * r.val = v.val; omega
  | ⟨1, _⟩ => show win0_2.index t (1 : Fin 2) * 1 + 1 * 0 = 0; omega

/-- The weights' block at every point is the whole matrix. -/
theorem weights_block_apply (c : Dev nD) (t : Fin cfg0.N) (k : Fin 6) (j : Fin 32) :
    (iblk0 V c 3 t : Vec Ideal S6x32 .f32) (ix2 k j) = (V c main_arg4 : S6x32.Idx → EReal) (ix2 k j) := by
  obtain ⟨-, -, -, -, -, -, e0, e1, -⟩ := block_indices t
  show (V c main_arg4 : S6x32.Idx → EReal) (((cfg0.win 3).blk t).view.emb (ix2 k j)) = _
  refine congrArg _ (funext fun a => Fin.ext ?_)
  match a with
  | ⟨0, _⟩ => show win0_3.index t (0 : Fin 2) * 6 + 1 * k.val = k.val; omega
  | ⟨1, _⟩ => show win0_3.index t (1 : Fin 2) * 32 + 1 * j.val = j.val; omega

/-- The bias's block at every point is the whole row. -/
theorem bias_block_apply (c : Dev nD) (t : Fin cfg0.N) (j : Fin 32) :
    (iblk0 V c 4 t : Vec Ideal S1x32 .f32) (ix2 0 j) = (V c main_v20 : S1x32.Idx → EReal) (ix2 0 j) := by
  obtain ⟨-, -, -, -, -, -, -, -, e0, e1, -⟩ := block_indices t
  show (V c main_v20 : S1x32.Idx → EReal) (((cfg0.win 4).blk t).view.emb (ix2 0 j)) = _
  refine congrArg _ (funext fun a => Fin.ext ?_)
  match a with
  | ⟨0, _⟩ => show win0_4.index t (0 : Fin 2) * 1 + 1 * 0 = 0; omega
  | ⟨1, _⟩ => show win0_4.index t (1 : Fin 2) * 32 + 1 * j.val = j.val; omega

/-! ## The whole table -/

/-- The hidden table as ONE function of its index: at (v, j), the first layer of the arrays the region found —
    contraction, the row's scale, the bias — clamped below at 0. -/
def hiddenTable (c : Dev nD) : S100000x32.Idx → EReal := fun i =>
  max (Sage.layerP (fun v k => (V c main_v12 : S100000x6.Idx → EReal) (ix2 v k))
        (fun v k => (V c main_arg0 : S100000x6.Idx → EReal) (ix2 v k))
        (fun v => (V c main_v19 : S100000x1.Idx → EReal) (ix2 v 0))
        (fun k j => (V c main_arg4 : S6x32.Idx → EReal) (ix2 k j))
        (fun j => (V c main_v20 : S1x32.Idx → EReal) (ix2 0 j)) (i 0) (i 1)) 0

/-- What point t writes back is rows 4000 t … 4000 t + 3999 of `hiddenTable`: the body's one whole-buffer store
    leaves its value, read from whole-buffer loads of the input blocks; entry (r, j) of it is the block arithmetic
    of the input blocks, each of which is the corresponding rows (or all) of its array, and entry (r, j) of the
    output's block is entry (4000 t + r, j) of the table. -/
theorem written_block (c : Dev nD) (t : Fin cfg0.N) :
    (dat0 (F := Ideal) V c).flushed 5 t = ((cfg0.win 5).blk t).view.read (Elt Ideal) (hiddenTable V c) := by
  show (cfg0.win 5).cut (grid0.coords t) ((dat0 V c).after 5 t) = _
  rw [after0_5]
  unfold out0_5
  rw [View.canon_unit_zero zeroOffsets]
  simp only [View.ld_unit_zero (S := S4000x6) zeroOffsets, View.ld_unit_zero (S := S6x32) zeroOffsets,
    View.ld_unit_zero (S := S4000x1) zeroOffsets, View.ld_unit_zero (S := S1x32) zeroOffsets]
  funext y
  obtain ⟨r, j, rfl⟩ : ∃ (r : Fin 4000) (j : Fin 32), y = ix2 r j := ⟨y 0, y 1, eq_ix2 y⟩
  refine (firstLayer_block_apply (iblk0 V c 0 t) (iblk0 V c 1 t) (iblk0 V c 2 t) (iblk0 V c 3 t) (iblk0 V c 4 t) r j).trans ?_
  have hN : cfg0.N = 25 := N_0
  have hv : t.val * 4000 + r.val < 100000 := by have := t.isLt; have := r.isLt; omega
  obtain ⟨-, -, -, -, -, -, -, -, -, -, e0, e1⟩ := block_indices t
  -- entry (r, j) of the output's block sits at row 4000 t + r, column j of the table
  have e5 : ((cfg0.win 5).blk t).view.emb (ix2 r j)
      = (ix2 (⟨t.val * 4000 + r.val, hv⟩ : Fin 100000) j : S100000x32.Idx) := by
    funext a; apply Fin.ext
    match a with
    | ⟨0, _⟩ => show win0_5.index t (0 : Fin 2) * 4000 + 1 * r.val = t.val * 4000 + r.val; omega
    | ⟨1, _⟩ => show win0_5.index t (1 : Fin 2) * 32 + 1 * j.val = j.val; omega
  show _ = hiddenTable V c (((cfg0.win 5).blk t).view.emb (ix2 r j))
  rw [e5]
  show _ = max (Sage.layerP _ _ _ _ _ (⟨t.val * 4000 + r.val, hv⟩ : Fin 100000) j) 0
  unfold Sage.layerP
  rw [scale_block_apply V c t r ⟨t.val * 4000 + r.val, hv⟩ rfl, bias_block_apply V c t j]
  refine congrArg (fun s => max (s * _ + _) 0) (Finset.sum_congr rfl fun k _ => ?_)
  rw [features0_block_apply V c t r k ⟨t.val * 4000 + r.val, hv⟩ rfl,
    features1_block_apply V c t r k ⟨t.val * 4000 + r.val, hv⟩ rfl, weights_block_apply V c t k j]

/-- An index of the table lies in point t's block iff each coordinate is in the block's range on its axis. -/
theorem mem_block (t : Fin cfg0.N) (i : S100000x32.Idx) :
    i ∈ ((cfg0.win 5).blk t).view.set ↔ ∀ a : Fin 2, win0_5.index t a * S4000x32.size a ≤ (i a).val
      ∧ (i a).val < win0_5.index t a * S4000x32.size a + S4000x32.size a := by
  show i ∈ ((View.whole main_v21).slice (win0_5.rect t)).set ↔ _
  rw [View.set_slice_whole, Rect.mem_set_unit]
  exact Iff.rfl

/-- Every index of the table is in some block that is written back: row v lies in the block of point v / 4000
    (below 25 since v < 100000), whose rows are 4000 (v / 4000) … 4000 (v / 4000) + 3999 and whose columns are all 32. -/
theorem rows_covered (i : S100000x32.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 32 := (i 1).isLt
  obtain ⟨t, ht⟩ : ∃ t : Fin cfg0.N, t.val = (i 0).val / 4000 := ⟨⟨(i 0).val / 4000, by omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 4000 ≤ (i 0).val ∧ (i 0).val < win0_5.index t (0 : Fin 2) * 4000 + 4000; omega
  | ⟨1, _⟩ =>
    show win0_5.index t (1 : Fin 2) * 32 ≤ (i 1).val ∧ (i 1).val < win0_5.index t (1 : Fin 2) * 32 + 32; omega

/-- After the first region's run the hidden table holds, at node v and column j, the first layer (contraction, then
    the row's reciprocal scale, then the bias) clamped below at 0, of the arrays the region found. -/
theorem hidden_apply (c : Dev nD) (v : Fin 100000) (j : Fin 32) :
    ((dat0 (F := Ideal) V c).arrAt 5 cfg0.N : S100000x32.Idx → EReal) (ix2 v j)
      = max (Sage.layerP (fun v k => (V c main_v12 : S100000x6.Idx → EReal) (ix2 v k))
              (fun v k => (V c main_arg0 : S100000x6.Idx → EReal) (ix2 v k))
              (fun v => (V c main_v19 : S100000x1.Idx → EReal) (ix2 v 0))
              (fun k j => (V c main_arg4 : S6x32.Idx → EReal) (ix2 k j))
              (fun j => (V c main_v20 : S1x32.Idx → EReal) (ix2 0 j)) v j) 0 := by
  -- every written block is its rows of the one table function and the blocks cover the table, so the table IS it
  have h := (dat0 (F := Ideal) V c).arrAt_eq_of_cover 5 (hiddenTable V c) (fun t _ => written_block V c t) rows_covered
  exact congrFun h (ix2 v j)

end Cert.KernelIdeal.Layer1

end
-- ==== Proof.KernelPool.lean ====
/-
  The kernel's second region: what the per-graph sums and counts hold after the run.

  The region walks the 100000 nodes in 25 blocks of 4000 rows. At each block it forms the 0/1 indicator matrix
  (row r, graph g: is row r's graph word the word of g), the block's second-layer rows (self plus neighbour entries
  contracted with the weights, scaled by the row's reciprocal, plus the bias), and adds to two running blocks: to the
  sums the product of the indicator's transpose with the rows, to the counts the indicator's column sums. The first
  block starts both from zeros; only after the last block are they written to their arrays. So after block n the sums
  hold, at (g, j), the sum over the nodes below 4000 (n + 1) of indicator times row, and after the last block the sum
  over all nodes; likewise the counts. Row r of block t is node 4000 t + r, and a sum over 25 consecutive stretches of
  4000 naturals is the sum over the naturals below 100000.
-/
import proofs.«416373_j979252543708_2_alg».proof.Proof.Gen.KernelIdeal.Frame
import proofs.«416373_j979252543708_2_alg».proof.Proof.Sage
import proofs.«416373_j979252543708_2_alg».proof.Proof.LibContract
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Pool

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Both offsets of a whole-block access are zero. -/
theorem hz : (![0, 0] : Fin 2 → Nat) = fun _ => 0 := funext fun a => by fin_cases a <;> rfl

section Pieces
variable {F : FTy → Type} [FloatOps F]

/-- A later point leaves in the sums block the running block plus this point's contribution: its one store
    covers the block, and every load reads a whole buffer. -/
theorem out_B_6 (c : Dev nD) (i : grid1.Coords) (a1 : Memref sig .tc .vmem S4000x32 .f32) (h1 : a1.IsWhole) (a2 : Memref sig .tc .vmem S4000x32 .bf16) (h2 : a2.IsWhole) (a3 : Memref sig .tc .vmem S4000x1 .f32) (h3 : a3.IsWhole) (a4 : Memref sig .tc .vmem S4000x1 .i32) (h4 : a4.IsWhole) (a5 : Memref sig .tc .vmem S32x64 .f32) (h5 : a5.IsWhole) (a6 : Memref sig .tc .vmem S1x64 .f32) (h6 : a6.IsWhole) (a7 : Memref sig .tc .vmem S256x64 .f32) (h7 : a7.IsWhole) (a8 : Memref sig .tc .vmem S1x256 .f32) (h8 : a8.IsWhole) (hc : ¬cond1_0 i)
    (x0 : Vec F S4000x32 .f32) (x1 : Vec F S4000x32 .bf16) (x2 : Vec F S4000x1 .f32) (x3 : Vec F S4000x1 .i32) (x4 : Vec F S32x64 .f32) (x5 : Vec F S1x64 .f32) (xo6 : Vec F S256x64 .f32) (xo7 : Vec F S1x256 .f32) :
    out1_B_6 c i a1 h1 a2 h2 a3 h3 a4 h4 a5 h5 a6 h6 a7 h7 a8 h8 hc x0 x1 x2 x3 x4 x5 xo6 xo7 = k1_pay6 x0 x1 x4 x2 x5 x3 xo6 := by
  unfold out1_B_6
  rw [View.read_writes_eq_canon _ _ _ (cover1_B_6 c i a1 h1 a2 h2 a3 h3 a4 h4 a5 h5 a6 h6 a7 h7 a8 h8 hc x0 x1 x2 x3 x4 x5 xo6 xo7)]
  unfold kernelRun1_B
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S4000x32) hz, View.ld_unit_zero (S := S32x64) hz, View.ld_unit_zero (S := S4000x1) hz, View.ld_unit_zero (S := S1x64) hz, View.ld_unit_zero (S := S256x64) hz, View.ld_unit_zero (S := S1x256) hz, View.readCov_unit_zero (S := S256x64) _ hz, View.readCov_unit_zero (S := S1x256) _ hz]

/-- A later point leaves in the counts block the running block plus this point's column sums. -/
theorem out_B_7 (c : Dev nD) (i : grid1.Coords) (a1 : Memref sig .tc .vmem S4000x32 .f32) (h1 : a1.IsWhole) (a2 : Memref sig .tc .vmem S4000x32 .bf16) (h2 : a2.IsWhole) (a3 : Memref sig .tc .vmem S4000x1 .f32) (h3 : a3.IsWhole) (a4 : Memref sig .tc .vmem S4000x1 .i32) (h4 : a4.IsWhole) (a5 : Memref sig .tc .vmem S32x64 .f32) (h5 : a5.IsWhole) (a6 : Memref sig .tc .vmem S1x64 .f32) (h6 : a6.IsWhole) (a7 : Memref sig .tc .vmem S256x64 .f32) (h7 : a7.IsWhole) (a8 : Memref sig .tc .vmem S1x256 .f32) (h8 : a8.IsWhole) (hc : ¬cond1_0 i)
    (x0 : Vec F S4000x32 .f32) (x1 : Vec F S4000x32 .bf16) (x2 : Vec F S4000x1 .f32) (x3 : Vec F S4000x1 .i32) (x4 : Vec F S32x64 .f32) (x5 : Vec F S1x64 .f32) (xo6 : Vec F S256x64 .f32) (xo7 : Vec F S1x256 .f32) :
    out1_B_7 c i a1 h1 a2 h2 a3 h3 a4 h4 a5 h5 a6 h6 a7 h7 a8 h8 hc x0 x1 x2 x3 x4 x5 xo6 xo7 = k1_pay1 (k1_pay5 x3) xo7 := by
  unfold out1_B_7
  rw [View.read_writes_eq_canon _ _ _ (cover1_B_7 c i a1 h1 a2 h2 a3 h3 a4 h4 a5 h5 a6 h6 a7 h7 a8 h8 hc x0 x1 x2 x3 x4 x5 xo6 xo7)]
  unfold kernelRun1_B
  dsimp only
  try sl_unfold_words
  rw [View.canon_unit_zero hz]
  simp only [View.readAt_eq_ld, h1.read_unread, h2.read_unread, h3.read_unread, h4.read_unread, h5.read_unread, h6.read_unread, h7.read_unread, h8.read_unread, View.ld_unit_zero (S := S4000x32) hz, View.ld_unit_zero (S := S32x64) hz, View.ld_unit_zero (S := S4000x1) hz, View.ld_unit_zero (S := S1x64) hz, View.ld_unit_zero (S := S256x64) hz, View.ld_unit_zero (S := S1x256) hz, View.readCov_unit_zero (S := S256x64) _ hz, View.readCov_unit_zero (S := S1x256) _ hz]

/-- The first point zeroes the sums block, reads the zeros back, and leaves zero plus its contribution. -/
theorem out_A_6 (c : Dev nD) (i : grid1.Coords) (a1 : Memref sig .tc .vmem S4000x32 .f32) (h1 : a1.IsWhole) (a2 : Memref sig .tc .vmem S4000x32 .bf16) (h2 : a2.IsWhole) (a3 : Memref sig .tc .vmem S4000x1 .f32) (h3 : a3.IsWhole) (a4 : Memref sig .tc .vmem S4000x1 .i32) (h4 : a4.IsWhole) (a5 : Memref sig .tc .vmem S32x64 .f32) (h5 : a5.IsWhole) (a6 : Memref sig .tc .vmem S1x64 .f32) (h6 : a6.IsWhole) (a7 : Memref sig .tc .vmem S256x64 .f32) (h7 : a7.IsWhole) (a8 : Memref sig .tc .vmem S1x256 .f32) (h8 : a8.IsWhole) (hc : cond1_0 i)
    (x0 : Vec F S4000x32 .f32) (x1 : Vec F S4000x32 .bf16) (x2 : Vec F S4000x1 .f32) (x3 : Vec F S4000x1 .i32) (x4 : Vec F S32x64 .f32) (x5 : Vec F S1x64 .f32) :
    out1_A_6 c i a1 h1 a2 h2 a3 h3 a4 h4 a5 h5 a6 h6 a7 h7 a8 h8 hc x0 x1 x2 x3 x4 x5 = k1_pay6 x0 x1 x4 x2 x5 x3 (k1_pay2 (F := F)) := by
  unfold out1_A_6
  rw [View.read_writes_eq_canon _ _ _ (cover1_A_6 c i a1 h1 a2 h2 a3 h3 a4 h4 a5 h5 a6 h6 a7 h7 a8 h8 hc x0 x1 x2 x3 x4 x5)]
  unfold kernelRun1_A
  dsimp only
  sl_unfold_words
  rw [View.canon_cons_unit_zero (S := S256x64) hz]
  simp only [View.readAt_eq_ld, h1.read_unread, h2.read_unread, h3.read_unread, h4.read_unread, h5.read_unread, h6.read_unread, View.ld_unit_zero (S := S4000x32) hz, View.ld_unit_zero (S := S32x64) hz, View.ld_unit_zero (S := S4000x1) hz, View.ld_unit_zero (S := S1x64) hz, View.ld_unit_zero (S := S256x64) hz, View.ld_unit_zero (S := S1x256) hz, View.readCov_unit_zero (S := S256x64) _ hz, View.readCov_unit_zero (S := S1x256) _ hz]

/-- The first point zeroes the counts block and leaves zero plus its column sums. -/
theorem out_A_7 (c : Dev nD) (i : grid1.Coords) (a1 : Memref sig .tc .vmem S4000x32 .f32) (h1 : a1.IsWhole) (a2 : Memref sig .tc .vmem S4000x32 .bf16) (h2 : a2.IsWhole) (a3 : Memref sig .tc .vmem S4000x1 .f32) (h3 : a3.IsWhole) (a4 : Memref sig .tc .vmem S4000x1 .i32) (h4 : a4.IsWhole) (a5 : Memref sig .tc .vmem S32x64 .f32) (h5 : a5.IsWhole) (a6 : Memref sig .tc .vmem S1x64 .f32) (h6 : a6.IsWhole) (a7 : Memref sig .tc .vmem S256x64 .f32) (h7 : a7.IsWhole) (a8 : Memref sig .tc .vmem S1x256 .f32) (h8 : a8.IsWhole) (hc : cond1_0 i)
    (x0 : Vec F S4000x32 .f32) (x1 : Vec F S4000x32 .bf16) (x2 : Vec F S4000x1 .f32) (x3 : Vec F S4000x1 .i32) (x4 : Vec F S32x64 .f32) (x5 : Vec F S1x64 .f32) :
    out1_A_7 c i a1 h1 a2 h2 a3 h3 a4 h4 a5 h5 a6 h6 a7 h7 a8 h8 hc x0 x1 x2 x3 x4 x5 = k1_pay1 (k1_pay5 x3) (k1_pay3 (F := F)) := by
  unfold out1_A_7
  rw [View.read_writes_eq_canon _ _ _ (cover1_A_7 c i a1 h1 a2 h2 a3 h3 a4 h4 a5 h5 a6 h6 a7 h7 a8 h8 hc x0 x1 x2 x3 x4 x5)]
  unfold kernelRun1_A
  dsimp only
  sl_unfold_words
  rw [View.canon_cons_unit_zero (S := S1x256) hz]
  simp only [View.readAt_eq_ld, h1.read_unread, h2.read_unread, h3.read_unread, h4.read_unread, h5.read_unread, h6.read_unread, View.ld_unit_zero (S := S4000x32) hz, View.ld_unit_zero (S := S32x64) hz, View.ld_unit_zero (S := S4000x1) hz, View.ld_unit_zero (S := S1x64) hz, View.ld_unit_zero (S := S256x64) hz, View.ld_unit_zero (S := S1x256) hz, View.readCov_unit_zero (S := S256x64) _ hz, View.readCov_unit_zero (S := S1x256) _ hz]

end Pieces

section Payloads

/-- An integer comparison of two vectors, read at an index. -/
theorem cmpi_at {s : Shape} {w : ℕ} (p : CmpIPredicate) (a b : IVec s w) (i : s.Idx) :
    cmpi p a b i = IntOp.cmpi p (a i) (b i) := rfl

/-- A column [A, 1] broadcast to [A, B] reads, at (r, q), the column's entry of row r. -/
theorem bcast_col {α : Type} {A B : ℕ} (hA : A ≠ 1) (x : (⟨2, ![A, 1]⟩ : Shape).Idx → α)
    (h : (⟨2, ![A, 1]⟩ : Shape).Broadcasts ⟨2, ![A, B]⟩) (r : Fin A) (q : Fin B) :
    broadcastTo ⟨2, ![A, B]⟩ x h (ix2 r q) = x (ix2 r 0) :=
  broadcastTo_apply x h (ix2 r q) (ix2 r 0) fun a => by
    match a with
    | ⟨0, _⟩ => show r.val = if A = 1 then 0 else r.val; rw [if_neg hA]
    | ⟨1, _⟩ => show 0 = if (1 : ℕ) = 1 then 0 else q.val; rw [if_pos rfl]

/-- The one-bit word 1, zero-extended and read signed, is the real 1; the word 0 is 0. -/
theorem bit_one_real : ((((1#1 : BitVec 1).setWidth 32).toInt : ℝ) : EReal) = 1 := by
  rw [show ((1#1 : BitVec 1).setWidth 32).toInt = 1 by decide]; simp
theorem bit_zero_real : ((((0#1 : BitVec 1).setWidth 32).toInt : ℝ) : EReal) = 0 := by
  rw [show ((0#1 : BitVec 1).setWidth 32).toInt = 0 by decide]; simp

/-- The indicator block: at row r and graph g, 1 when the row's graph word is the word of g, else 0
    (the column of graph words compared with the graph number along the second axis, widened, made a float). -/
theorem pay4_apply (x3 : Vec Ideal S4000x1 .i32) (r : Fin 4000) (g : Fin 256) :
    k1_pay4 (F := Ideal) x3 (ix2 r g) = Sage.hot (x3 (ix2 r 0)) g := by
  unfold k1_pay4
  try dsimp only
  rw [sitofp_apply, extui_apply, cmpi_at, bcast_col (by decide), shapeCast_self, iota_single_apply]
  show ((((IntOp.cmpi .eq (x3 (ix2 r 0)) (BitVec.ofNat 32 g.val)).setWidth 32).toInt : ℝ) : EReal) = _
  unfold Sage.hot
  by_cases h : x3 (ix2 r 0) = BitVec.ofNat 32 g.val
  · rw [if_pos h]
    have e : IntOp.cmpi .eq (x3 (ix2 r 0)) (BitVec.ofNat 32 g.val) = 1#1 := by
      show BitVec.ofBool (x3 (ix2 r 0) == BitVec.ofNat 32 g.val) = 1#1
      rw [h]; simp
    rw [e]; exact bit_one_real
  · rw [if_neg h]
    have e : IntOp.cmpi .eq (x3 (ix2 r 0)) (BitVec.ofNat 32 g.val) = 0#1 := by
      show BitVec.ofBool (x3 (ix2 r 0) == BitVec.ofNat 32 g.val) = 0#1
      cases hb : (x3 (ix2 r 0) == BitVec.ofNat 32 g.val)
      · rfl
      · exact absurd (eq_of_beq hb) h
    rw [e]; exact bit_zero_real

/-- The column sums of the indicator block: at graph g, the number of the block's rows in g. -/
theorem pay5_apply (x3 : Vec Ideal S4000x1 .i32) (g : Fin 256) :
    k1_pay5 (F := Ideal) x3 (ix2 0 g) = ∑ r : Fin 4000, Sage.hot (x3 (ix2 r 0)) g := by
  unfold k1_pay5
  try dsimp only
  rw [shapeCast_a_1a_apply]
  refine (Ideal.multiReduction_add_single (k1_pay4 (F := Ideal) x3) 0x00000000#32 reduces_S4000x256_S256 (.inl rfl) rfl (ix1 g)).trans ?_
  show ∑ r : Fin 4000, k1_pay4 (F := Ideal) x3 (reduces_S4000x256_S256.lift (ix1 g) r) = _
  refine Finset.sum_congr rfl fun r _ => ?_
  have e : reduces_S4000x256_S256.lift (ix1 g) r = ix2 r g := funext fun a => Fin.ext (by
    match a with
    | ⟨0, _⟩ => rfl
    | ⟨1, _⟩ => rfl)
  rw [e, pay4_apply]

/-- The counts update: the running block plus this point's column sums. -/
theorem pay1_apply (v30 : FVec Ideal S1x256 .f32) (v35 : Vec Ideal S1x256 .f32) (g : Fin 256) :
    k1_pay1 v30 v35 (ix2 0 g) = v35 (ix2 0 g) + v30 (ix2 0 g) := by
  unfold k1_pay1
  try dsimp only
  rw [shapeCast_self]
  rfl

/-- The zero blocks the first point stores. -/
theorem pay2_apply (i : S256x64.Idx) : k1_pay2 (F := Ideal) i = 0 := by
  unfold k1_pay2
  try dsimp only
  exact Ideal.ofBits_zero_f32
theorem pay3_apply (i : S1x256.Idx) : k1_pay3 (F := Ideal) i = 0 := by
  unfold k1_pay3
  try dsimp only
  exact Ideal.ofBits_zero_f32

/-- The transposed contraction's left operand, contracted axis: the contraction position. -/
theorem lhsT_0 (i : S256x64.Idx) (q : dot_S4000x256_S4000x64_S256x64_0_0_1_1_n_n.contr.Idx) :
    (dot_S4000x256_S4000x64_S256x64_0_0_1_1_n_n.lhsIdx i q 0).val = (q ⟨0, by decide⟩).val :=
  dot_S4000x256_S4000x64_S256x64_0_0_1_1_n_n.lhsIdx_val_of_single rfl i q
/-- Its kept axis: the result's row. -/
theorem lhsT_1 (i : S256x64.Idx) (q : dot_S4000x256_S4000x64_S256x64_0_0_1_1_n_n.contr.Idx) :
    (dot_S4000x256_S4000x64_S256x64_0_0_1_1_n_n.lhsIdx i q 1).val = (i 0).val := by
  unfold DotDims.lhsIdx
  rw [dif_neg (show ¬(1 : Fin S4000x256.rank) ∈ dot_S4000x256_S4000x64_S256x64_0_0_1_1_n_n.lhsBatch by decide), dif_pos (show (1 : Fin S4000x256.rank) ∈ dot_S4000x256_S4000x64_S256x64_0_0_1_1_n_n.lhsNonContracting by decide)]
  rfl
/-- The right operand, contracted axis: the contraction position. -/
theorem rhsT_0 (i : S256x64.Idx) (q : dot_S4000x256_S4000x64_S256x64_0_0_1_1_n_n.contr.Idx) :
    (dot_S4000x256_S4000x64_S256x64_0_0_1_1_n_n.rhsIdx i q 0).val = (q ⟨0, by decide⟩).val :=
  dot_S4000x256_S4000x64_S256x64_0_0_1_1_n_n.rhsIdx_val_of_single rfl i q
/-- Its kept axis: the result's column. -/
theorem rhsT_1 (i : S256x64.Idx) (q : dot_S4000x256_S4000x64_S256x64_0_0_1_1_n_n.contr.Idx) :
    (dot_S4000x256_S4000x64_S256x64_0_0_1_1_n_n.rhsIdx i q 1).val = (i 1).val := by
  unfold DotDims.rhsIdx
  rw [dif_neg (show ¬(1 : Fin S4000x64.rank) ∈ dot_S4000x256_S4000x64_S256x64_0_0_1_1_n_n.rhsBatch by decide), dif_pos (show (1 : Fin S4000x64.rank) ∈ dot_S4000x256_S4000x64_S256x64_0_0_1_1_n_n.rhsNonContracting by decide)]
  rfl

/-- The product of the transpose of a [4000, 256] block with a [4000, 64] block (both contracted along their rows),
    accumulated into zeros, at (g, j): the sum over the rows r of left (r, g) times right (r, j). -/
theorem matmulT_apply (prec : Option ContractPrecision) (lhs : FVec Ideal S4000x256 .f32) (rhs : FVec Ideal S4000x64 .f32)
    (g : Fin 256) (j : Fin 64) :
    matmul dot_S4000x256_S4000x64_S256x64_0_0_1_1_n_n prec lhs rhs (constant (F := Ideal) S256x64 .f32 0x00000000#32) (ix2 g j)
      = ∑ r : Fin 4000, lhs (ix2 r g) * rhs (ix2 r j) := by
  simp only [matmul]
  rw [Ideal.matmul_constant_zero_apply, ← Equiv.sum_comp (ValueIdx.contrEquiv1 dot_S4000x256_S4000x64_S256x64_0_0_1_1_n_n 4000 rfl rfl).symm]
  refine Finset.sum_congr rfl fun k _ => ?_
  have hk := ValueIdx.contrEquiv1_symm_val dot_S4000x256_S4000x64_S256x64_0_0_1_1_n_n 4000 rfl rfl k
  have el : dot_S4000x256_S4000x64_S256x64_0_0_1_1_n_n.lhsIdx (ix2 g j) ((ValueIdx.contrEquiv1 dot_S4000x256_S4000x64_S256x64_0_0_1_1_n_n 4000 rfl rfl).symm k) = ix2 k g := funext fun a => Fin.ext (by
    match a with
    | ⟨0, _⟩ => exact (lhsT_0 _ _).trans hk
    | ⟨1, _⟩ => exact lhsT_1 _ _)
  have er : dot_S4000x256_S4000x64_S256x64_0_0_1_1_n_n.rhsIdx (ix2 g j) ((ValueIdx.contrEquiv1 dot_S4000x256_S4000x64_S256x64_0_0_1_1_n_n 4000 rfl rfl).symm k) = ix2 k j := funext fun a => Fin.ext (by
    match a with
    | ⟨0, _⟩ => exact (rhsT_0 _ _).trans hk
    | ⟨1, _⟩ => exact rhsT_1 _ _)
  rw [el, er]

/-- A block's second-layer row r at column j: the row's self and neighbour entries added, contracted with the
    weights, scaled by the row's reciprocal, plus the bias. -/
def rowB (x0 : Vec Ideal S4000x32 .f32) (x1 : Vec Ideal S4000x32 .bf16) (x4 : Vec Ideal S32x64 .f32)
    (x2 : Vec Ideal S4000x1 .f32) (x5 : Vec Ideal S1x64 .f32) (r : Fin 4000) (j : Fin 64) : EReal :=
  (∑ k : Fin 32, (x0 (ix2 r k) + x1 (ix2 r k)) * x4 (ix2 k j)) * x2 (ix2 r 0) + x5 (ix2 0 j)

/-- The sums update: the running block plus, at (g, j), the sum over the block's rows of indicator times row. -/
theorem pay6_apply (x0 : Vec Ideal S4000x32 .f32) (x1 : Vec Ideal S4000x32 .bf16) (x4 : Vec Ideal S32x64 .f32)
    (x2 : Vec Ideal S4000x1 .f32) (x5 : Vec Ideal S1x64 .f32) (x3 : Vec Ideal S4000x1 .i32) (acc : Vec Ideal S256x64 .f32)
    (g : Fin 256) (j : Fin 64) :
    k1_pay6 (F := Ideal) x0 x1 x4 x2 x5 x3 acc (ix2 g j)
      = acc (ix2 g j) + ∑ r : Fin 4000, Sage.hot (x3 (ix2 r 0)) g * rowB x0 x1 x4 x2 x5 r j := by
  unfold k1_pay6
  try dsimp only
  simp only [shapeCast_self]
  rw [addf_apply]
  refine congrArg (acc (ix2 g j) + ·) ?_
  refine (matmulT_apply _ _ _ g j).trans ?_
  refine Finset.sum_congr rfl fun r _ => ?_
  rw [pay4_apply]
  refine congrArg (Sage.hot (x3 (ix2 r 0)) g * ·) ?_
  rw [addf_apply, mulf_apply, bcast_col (by decide), broadcastTo_1b_ab_apply,
    Cert.LibContract.matmul_plain _ rfl rfl rfl rfl rfl rfl]
  rfl

end Payloads

section Blocks

/-- The six input blocks of a grid point, each at its literal type. -/
abbrev b0 (c : Dev nD) (t : Fin cfg1.N) : Vec Ideal S4000x32 .f32 := iblk1 V c 0 t
abbrev b1 (c : Dev nD) (t : Fin cfg1.N) : Vec Ideal S4000x32 .bf16 := iblk1 V c 1 t
abbrev b2 (c : Dev nD) (t : Fin cfg1.N) : Vec Ideal S4000x1 .f32 := iblk1 V c 2 t
abbrev b3 (c : Dev nD) (t : Fin cfg1.N) : Vec Ideal S4000x1 .i32 := iblk1 V c 3 t
abbrev b4 (c : Dev nD) (t : Fin cfg1.N) : Vec Ideal S32x64 .f32 := iblk1 V c 4 t
abbrev b5 (c : Dev nD) (t : Fin cfg1.N) : Vec Ideal S1x64 .f32 := iblk1 V c 5 t

/-- The six input arrays as the region finds them, each at its literal type. -/
abbrev aSelf (c : Dev nD) : Vec Ideal S100000x32 .f32 := V c main_v32
abbrev aNbr (c : Dev nD) : Vec Ideal S100000x32 .bf16 := V c main_v21
abbrev aRec (c : Dev nD) : Vec Ideal S100000x1 .f32 := V c main_v19
abbrev aGid (c : Dev nD) : Vec Ideal S100000x1 .i32 := V c main_v33
abbrev aW (c : Dev nD) : Vec Ideal S32x64 .f32 := V c main_arg6
abbrev aB (c : Dev nD) : Vec Ideal S1x64 .f32 := V c main_v34

/-- The block index maps over the grid: the four row-blocked inputs are at row block t, column block 0;
    the weights, the bias and the two outputs are always at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-- Row r, column k of the self block at point t is the self array at node 4000 t + r. -/
theorem blk0_apply (c : Dev nD) (t : Fin cfg1.N) (r : Fin 4000) (k : Fin 32) (v : Fin 100000)
    (hv : v.val = 4000 * t.val + r.val) :
    b0 V c t (ix2 r k) = aSelf V c (ix2 v k) := by
  show iblk1 V c 0 t (ix2 r k) = _
  unfold iblk1
  rw [View.read_apply]
  show (V c main_v32 : S100000x32.Idx → EReal) _ = _
  congr 1
  funext a
  apply Fin.ext
  match a with
  | ⟨0, _⟩ => show win1_0.index t 0 * 4000 + 1 * r.val = v.val; rw [(idx_facts t).1.1, hv]; omega
  | ⟨1, _⟩ => show win1_0.index t 1 * 32 + 1 * k.val = k.val; rw [(idx_facts t).1.2]; omega

/-- The same for the neighbour block. -/
theorem blk1_apply (c : Dev nD) (t : Fin cfg1.N) (r : Fin 4000) (k : Fin 32) (v : Fin 100000)
    (hv : v.val = 4000 * t.val + r.val) :
    b1 V c t (ix2 r k) = aNbr V c (ix2 v k) := by
  show iblk1 V c 1 t (ix2 r k) = _
  unfold iblk1
  rw [View.read_apply]
  show (V c main_v21 : S100000x32.Idx → EReal) _ = _
  congr 1
  funext a
  apply Fin.ext
  match a with
  | ⟨0, _⟩ => show win1_1.index t 0 * 4000 + 1 * r.val = v.val; rw [(idx_facts t).2.1.1, hv]; omega
  | ⟨1, _⟩ => show win1_1.index t 1 * 32 + 1 * k.val = k.val; rw [(idx_facts t).2.1.2]; omega

/-- Row r of the reciprocal block at point t is the reciprocal column at node 4000 t + r. -/
theorem blk2_apply (c : Dev nD) (t : Fin cfg1.N) (r : Fin 4000) (v : Fin 100000)
    (hv : v.val = 4000 * t.val + r.val) :
    b2 V c t (ix2 r 0) = aRec V c (ix2 v 0) := by
  show iblk1 V c 2 t (ix2 r 0) = _
  unfold iblk1
  rw [View.read_apply]
  show (V c main_v19 : S100000x1.Idx → EReal) _ = _
  congr 1
  funext a
  apply Fin.ext
  match a with
  | ⟨0, _⟩ => show win1_2.index t 0 * 4000 + 1 * r.val = v.val; rw [(idx_facts t).2.2.1.1, hv]; omega
  | ⟨1, _⟩ => show win1_2.index t 1 * 1 + 1 * 0 = 0; rw [(idx_facts t).2.2.1.2]

/-- Row r of the graph-word block at point t is the graph word of node 4000 t + r. -/
theorem blk3_apply (c : Dev nD) (t : Fin cfg1.N) (r : Fin 4000) (v : Fin 100000)
    (hv : v.val = 4000 * t.val + r.val) :
    b3 V c t (ix2 r 0) = aGid V c (ix2 v 0) := by
  show iblk1 V c 3 t (ix2 r 0) = _
  unfold iblk1
  rw [View.read_apply]
  show (V c main_v33 : S100000x1.Idx → BitVec 32) _ = _
  congr 1
  funext a
  apply Fin.ext
  match a with
  | ⟨0, _⟩ => show win1_3.index t 0 * 4000 + 1 * r.val = v.val; rw [(idx_facts t).2.2.2.1.1, hv]; omega
  | ⟨1, _⟩ => show win1_3.index t 1 * 1 + 1 * 0 = 0; rw [(idx_facts t).2.2.2.1.2]

/-- The weights block is the whole weights array at every point. -/
theorem blk4_apply (c : Dev nD) (t : Fin cfg1.N) (k : Fin 32) (j : Fin 64) :
    b4 V c t (ix2 k j) = aW V c (ix2 k j) := by
  show iblk1 V c 4 t (ix2 k j) = _
  unfold iblk1
  rw [View.read_apply]
  show (V c main_arg6 : S32x64.Idx → EReal) _ = _
  congr 1
  funext a
  apply Fin.ext
  match a with
  | ⟨0, _⟩ => show win1_4.index t 0 * 32 + 1 * k.val = k.val; rw [(idx_facts t).2.2.2.2.1.1]; omega
  | ⟨1, _⟩ => show win1_4.index t 1 * 64 + 1 * j.val = j.val; rw [(idx_facts t).2.2.2.2.1.2]; omega

/-- The bias block is the whole bias row at every point. -/
theorem blk5_apply (c : Dev nD) (t : Fin cfg1.N) (j : Fin 64) :
    b5 V c t (ix2 0 j) = aB V c (ix2 0 j) := by
  show iblk1 V c 5 t (ix2 0 j) = _
  unfold iblk1
  rw [View.read_apply]
  show (V c main_v34 : S1x64.Idx → EReal) _ = _
  congr 1
  funext a
  apply Fin.ext
  match a with
  | ⟨0, _⟩ => show win1_5.index t 0 * 1 + 1 * 0 = 0; rw [(idx_facts t).2.2.2.2.2.1]
  | ⟨1, _⟩ => show win1_5.index t 1 * 64 + 1 * j.val = j.val; rw [(idx_facts t).2.2.2.2.2.2]; omega

end Blocks

section Invariant

/-- Node v's indicator for graph g. -/
def hotN (c : Dev nD) (g : Fin 256) (v : Fin 100000) : EReal := Sage.hot (aGid V c (ix2 v 0)) g

/-- Node v's second-layer row at column j, over the arrays the region finds: self plus neighbour entries
    contracted with the weights, scaled by the node's reciprocal, plus the bias. -/
def rowN (c : Dev nD) (j : Fin 64) (v : Fin 100000) : EReal :=
  (∑ k : Fin 32, (aSelf V c (ix2 v k) + aNbr V c (ix2 v k)) * aW V c (ix2 k j)) * aRec V c (ix2 v 0) + aB V c (ix2 0 j)

/-- The sums' summand as a function of a natural number: node n's indicator times its row, and 0 past the nodes. -/
def termS (c : Dev nD) (g : Fin 256) (j : Fin 64) (n : ℕ) : EReal :=
  if h : n < 100000 then hotN V c g ⟨n, h⟩ * rowN V c j ⟨n, h⟩ else 0

/-- The counts' summand: node n's indicator. -/
def termC (c : Dev nD) (g : Fin 256) (n : ℕ) : EReal :=
  if h : n < 100000 then hotN V c g ⟨n, h⟩ else 0

/-- Row r of point t's blocks is node 4000 t + r: the indicator read off the graph-word block. -/
theorem termC_blk (c : Dev nD) (g : Fin 256) (t : Fin cfg1.N) (r : Fin 4000) :
    Sage.hot (b3 V c t (ix2 r 0)) g = termC V c g (4000 * t.val + r.val) := by
  have hN : t.val < 25 := lt_of_lt_of_eq t.isLt (show cfg1.N = 25 from N_1)
  have hlt : 4000 * t.val + r.val < 100000 := by have := r.isLt; omega
  unfold termC
  rw [dif_pos hlt]
  unfold hotN
  rw [blk3_apply V c t r ⟨_, hlt⟩ rfl]

/-- And the indicator times the block's row is the node's summand. -/
theorem termS_blk (c : Dev nD) (g : Fin 256) (j : Fin 64) (t : Fin cfg1.N) (r : Fin 4000) :
    Sage.hot (b3 V c t (ix2 r 0)) g * rowB (b0 V c t) (b1 V c t) (b4 V c t) (b2 V c t) (b5 V c t) r j
      = termS V c g j (4000 * t.val + r.val) := by
  have hN : t.val < 25 := lt_of_lt_of_eq t.isLt (show cfg1.N = 25 from N_1)
  have hlt : 4000 * t.val + r.val < 100000 := by have := r.isLt; omega
  unfold termS
  rw [dif_pos hlt]
  unfold hotN rowN rowB
  rw [blk3_apply V c t r ⟨_, hlt⟩ rfl, blk2_apply V c t r ⟨_, hlt⟩ rfl, blk5_apply V c t j]
  have e : ∑ k : Fin 32, (b0 V c t (ix2 r k) + b1 V c t (ix2 r k)) * b4 V c t (ix2 k j)
      = ∑ k : Fin 32, (aSelf V c (ix2 ⟨4000 * t.val + r.val, hlt⟩ k) + aNbr V c (ix2 ⟨4000 * t.val + r.val, hlt⟩ k))
          * aW V c (ix2 k j) :=
    Finset.sum_congr rfl fun k _ => by
      rw [blk0_apply V c t r k ⟨_, hlt⟩ rfl, blk1_apply V c t r k ⟨_, hlt⟩ rfl, blk4_apply V c t k j]
  rw [e]

/-- The contribution of point t to the sums: its block's rows are the nodes 4000 t, …, 4000 t + 3999. -/
theorem contribS (c : Dev nD) (g : Fin 256) (j : Fin 64) (t : Fin cfg1.N) :
    ∑ r : Fin 4000, Sage.hot (b3 V c t (ix2 r 0)) g * rowB (b0 V c t) (b1 V c t) (b4 V c t) (b2 V c t) (b5 V c t) r j
      = ∑ x ∈ Finset.range 4000, termS V c g j (4000 * t.val + x) := by
  rw [← Fin.sum_univ_eq_sum_range (fun x => termS V c g j (4000 * t.val + x)) 4000]
  exact Finset.sum_congr rfl fun r _ => termS_blk V c g j t r

/-- The contribution of point t to the counts. -/
theorem contribC (c : Dev nD) (g : Fin 256) (t : Fin cfg1.N) :
    ∑ r : Fin 4000, Sage.hot (b3 V c t (ix2 r 0)) g = ∑ x ∈ Finset.range 4000, termC V c g (4000 * t.val + x) := by
  rw [← Fin.sum_univ_eq_sum_range (fun x => termC V c g (4000 * t.val + x)) 4000]
  exact Finset.sum_congr rfl fun r _ => termC_blk V c g t r

end Invariant

section Run

/-- After point n the sums block holds, at (g, j), the sum of the summands of the nodes below 4000 (n + 1):
    the first point starts from zeros, every later point adds its block's rows to what the point before left. -/
theorem sums_at (c : Dev nD) (g : Fin 256) (j : Fin 64) : ∀ (n : ℕ) (h : n < cfg1.N),
    ((outsAt1 V c n h).1 : Vec Ideal S256x64 .f32) (ix2 g j) = ∑ i ∈ Finset.range (4000 * (n + 1)), termS V c g j i
  | 0, h => by
    rw [outsAt1_A V c ⟨0, h⟩ rfl]
    dsimp only
    refine (congrFun (out_A_6 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (b0 V c ⟨0, h⟩) (b1 V c ⟨0, h⟩) (b2 V c ⟨0, h⟩) (b3 V c ⟨0, h⟩) (b4 V c ⟨0, h⟩) (b5 V c ⟨0, h⟩)) (ix2 g j)).trans ?_
    refine (pay6_apply (b0 V c ⟨0, h⟩) (b1 V c ⟨0, h⟩) (b4 V c ⟨0, h⟩) (b2 V c ⟨0, h⟩) (b5 V c ⟨0, h⟩) (b3 V c ⟨0, h⟩) (k1_pay2 (F := Ideal)) g j).trans ?_
    rw [pay2_apply, zero_add]
    refine (contribS V c g j ⟨0, h⟩).trans ?_
    refine Finset.sum_congr rfl fun x _ => congrArg (termS V c g j) ?_
    show 4000 * 0 + x = x
    omega
  | n + 1, h => by
    have hN : cfg1.N = 25 := N_1
    have hB : ¬(⟨n + 1, h⟩ : Fin cfg1.N).val % 25 = 0 := by dsimp only; omega
    rw [outsAt1_B V c ⟨n + 1, h⟩ hB]
    dsimp only
    refine (congrFun (out_B_6 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hh => hB ((hcond1_0 ⟨n + 1, h⟩).mp hh)) (b0 V c ⟨n + 1, h⟩) (b1 V c ⟨n + 1, h⟩) (b2 V c ⟨n + 1, h⟩) (b3 V c ⟨n + 1, h⟩) (b4 V c ⟨n + 1, h⟩) (b5 V c ⟨n + 1, h⟩) (outsAt1 V c n (Nat.lt_of_succ_lt h)).1 (outsAt1 V c n (Nat.lt_of_succ_lt h)).2) (ix2 g j)).trans ?_
    refine (pay6_apply (b0 V c ⟨n + 1, h⟩) (b1 V c ⟨n + 1, h⟩) (b4 V c ⟨n + 1, h⟩) (b2 V c ⟨n + 1, h⟩) (b5 V c ⟨n + 1, h⟩) (b3 V c ⟨n + 1, h⟩) (outsAt1 V c n (Nat.lt_of_succ_lt h)).1 g j).trans ?_
    rw [sums_at c g j n (Nat.lt_of_succ_lt h), contribS V c g j ⟨n + 1, h⟩,
      show 4000 * (n + 1 + 1) = 4000 * (n + 1) + 4000 by ring, Finset.sum_range_add]

/-- After point n the counts block holds, at g, the number of the nodes below 4000 (n + 1) that are in g. -/
theorem cnts_at (c : Dev nD) (g : Fin 256) : ∀ (n : ℕ) (h : n < cfg1.N),
    ((outsAt1 V c n h).2 : Vec Ideal S1x256 .f32) (ix2 0 g) = ∑ i ∈ Finset.range (4000 * (n + 1)), termC V c g i
  | 0, h => by
    rw [outsAt1_A V c ⟨0, h⟩ rfl]
    dsimp only
    refine (congrFun (out_A_7 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) ((hcond1_0 ⟨0, h⟩).mpr rfl) (b0 V c ⟨0, h⟩) (b1 V c ⟨0, h⟩) (b2 V c ⟨0, h⟩) (b3 V c ⟨0, h⟩) (b4 V c ⟨0, h⟩) (b5 V c ⟨0, h⟩)) (ix2 0 g)).trans ?_
    refine (pay1_apply (k1_pay5 (F := Ideal) (b3 V c ⟨0, h⟩)) (k1_pay3 (F := Ideal)) g).trans ?_
    rw [pay3_apply, zero_add]
    refine (pay5_apply (b3 V c ⟨0, h⟩) g).trans ?_
    refine (contribC V c g ⟨0, h⟩).trans ?_
    refine Finset.sum_congr rfl fun x _ => congrArg (termC V c g) ?_
    show 4000 * 0 + x = x
    omega
  | n + 1, h => by
    have hN : cfg1.N = 25 := N_1
    have hB : ¬(⟨n + 1, h⟩ : Fin cfg1.N).val % 25 = 0 := by dsimp only; omega
    rw [outsAt1_B V c ⟨n + 1, h⟩ hB]
    dsimp only
    refine (congrFun (out_B_7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (fun hh => hB ((hcond1_0 ⟨n + 1, h⟩).mp hh)) (b0 V c ⟨n + 1, h⟩) (b1 V c ⟨n + 1, h⟩) (b2 V c ⟨n + 1, h⟩) (b3 V c ⟨n + 1, h⟩) (b4 V c ⟨n + 1, h⟩) (b5 V c ⟨n + 1, h⟩) (outsAt1 V c n (Nat.lt_of_succ_lt h)).1 (outsAt1 V c n (Nat.lt_of_succ_lt h)).2) (ix2 0 g)).trans ?_
    refine (pay1_apply (k1_pay5 (F := Ideal) (b3 V c ⟨n + 1, h⟩)) (outsAt1 V c n (Nat.lt_of_succ_lt h)).2 g).trans ?_
    rw [cnts_at c g n (Nat.lt_of_succ_lt h), pay5_apply (b3 V c ⟨n + 1, h⟩) g, contribC V c g ⟨n + 1, h⟩,
      show 4000 * (n + 1 + 1) = 4000 * (n + 1) + 4000 by ring, Finset.sum_range_add]

end Run

section Result

/-- The last grid point: the only one whose write-back fills the two result arrays. -/
abbrev tLast : Fin cfg1.N := ⟨24, lt_of_lt_of_eq (by decide : 24 < 25) (show cfg1.N = 25 from N_1).symm⟩

/-- What the two arrays end holding: the blocks the last point leaves. -/
abbrev res6 (c : Dev nD) : Buf (Elt Ideal) ((c : Thread nD τ).loc main_v35_0) := (outsAt1 V c tLast.val tLast.isLt).1
abbrev res7 (c : Dev nD) : Buf (Elt Ideal) ((c : Thread nD τ).loc main_v35_1) := (outsAt1 V c tLast.val tLast.isLt).2

/-- At the last point each output window is the block at offset (0, 0), uncut: it is its whole array. -/
theorem out_facts :
    ((win1_6.index tLast (0 : Fin 2) * win1_6.size (0 : Fin 2) = 0 ∧ win1_6.index tLast (1 : Fin 2) * win1_6.size (1 : Fin 2) = 0)
      ∧ win1_6.xsize (grid1.coords tLast) (0 : Fin 2) = 256 ∧ win1_6.xsize (grid1.coords tLast) (1 : Fin 2) = 64)
    ∧ ((win1_7.index tLast (0 : Fin 2) * win1_7.size (0 : Fin 2) = 0 ∧ win1_7.index tLast (1 : Fin 2) * win1_7.size (1 : Fin 2) = 0)
      ∧ win1_7.xsize (grid1.coords tLast) (0 : Fin 2) = 1 ∧ win1_7.xsize (grid1.coords tLast) (1 : Fin 2) = 256) := by
  decide +kernel

/-- The one write-back of the sums writes the last point's block: a block at zero offsets of its own array's shape
    is read back as the array. -/
theorem flushed6_eq (c : Dev nD) (t : Fin cfg1.N) (hf : (cfg1.win 6).flush t = true) :
    (dat1 V c).flushed 6 t = ((cfg1.win 6).blk t).view.read (Elt Ideal) (res6 V c) := by
  have hN : cfg1.N = 25 := N_1
  have h24 : t.val = 24 := by have := (flush1_6 t).mp hf; have := t.isLt; omega
  obtain rfl : t = tLast := Fin.ext h24
  show (cfg1.win 6).cut (grid1.coords tLast) ((dat1 V c).after 6 tLast) = _
  rw [after1_6]
  have hz' : (fun a => win1_6.index tLast a * main_v35_0.ty.shape.size a) = fun _ => 0 :=
    funext fun a => by
      match a with
      | ⟨0, _⟩ => exact out_facts.1.1.1
      | ⟨1, _⟩ => exact out_facts.1.1.2
  exact (Memref.read_access_unit_zero (Elt Ideal) main_v35_0 hz' (fun a => by rw [congrFun hz' a]; simp) (res6 V c)).symm

/-- The same for the counts. -/
theorem flushed7_eq (c : Dev nD) (t : Fin cfg1.N) (hf : (cfg1.win 7).flush t = true) :
    (dat1 V c).flushed 7 t = ((cfg1.win 7).blk t).view.read (Elt Ideal) (res7 V c) := by
  have hN : cfg1.N = 25 := N_1
  have h24 : t.val = 24 := by have := (flush1_7 t).mp hf; have := t.isLt; omega
  obtain rfl : t = tLast := Fin.ext h24
  show (cfg1.win 7).cut (grid1.coords tLast) ((dat1 V c).after 7 tLast) = _
  rw [after1_7]
  have hz' : (fun a => win1_7.index tLast a * main_v35_1.ty.shape.size a) = fun _ => 0 :=
    funext fun a => by
      match a with
      | ⟨0, _⟩ => exact out_facts.2.1.1
      | ⟨1, _⟩ => exact out_facts.2.1.2
  exact (Memref.read_access_unit_zero (Elt Ideal) main_v35_1 hz' (fun a => by rw [congrFun hz' a]; simp) (res7 V c)).symm

/-- The sums array ends holding the last point's block: that point's write-back covers every index. -/
theorem final6 (c : Dev nD) : (dat1 V c).arrAt 6 cfg1.N = res6 V c :=
  (dat1 V c).arrAt_eq_of_cover 6 (res6 V c) (flushed6_eq V c) fun i =>
    ⟨tLast, (flush1_6 tLast).mpr rfl, by
      show i ∈ ((View.whole main_v35_0).slice (win1_6.rect tLast)).set
      rw [View.set_slice_whole, Rect.mem_set_unit]
      intro a
      match a with
      | ⟨0, _⟩ =>
        show win1_6.index tLast 0 * win1_6.size 0 ≤ (i 0 : Nat)
          ∧ (i 0 : Nat) < win1_6.index tLast 0 * win1_6.size 0 + win1_6.xsize (grid1.coords tLast) 0
        rw [out_facts.1.1.1, out_facts.1.2.1]
        exact ⟨Nat.zero_le _, by have : (i 0 : Nat) < 256 := (i 0).isLt; omega⟩
      | ⟨1, _⟩ =>
        show win1_6.index tLast 1 * win1_6.size 1 ≤ (i 1 : Nat)
          ∧ (i 1 : Nat) < win1_6.index tLast 1 * win1_6.size 1 + win1_6.xsize (grid1.coords tLast) 1
        rw [out_facts.1.1.2, out_facts.1.2.2]
        exact ⟨Nat.zero_le _, by have : (i 1 : Nat) < 64 := (i 1).isLt; omega⟩⟩

/-- The counts array likewise. -/
theorem final7 (c : Dev nD) : (dat1 V c).arrAt 7 cfg1.N = res7 V c :=
  (dat1 V c).arrAt_eq_of_cover 7 (res7 V c) (flushed7_eq V c) fun i =>
    ⟨tLast, (flush1_7 tLast).mpr rfl, by
      show i ∈ ((View.whole main_v35_1).slice (win1_7.rect tLast)).set
      rw [View.set_slice_whole, Rect.mem_set_unit]
      intro a
      match a with
      | ⟨0, _⟩ =>
        show win1_7.index tLast 0 * win1_7.size 0 ≤ (i 0 : Nat)
          ∧ (i 0 : Nat) < win1_7.index tLast 0 * win1_7.size 0 + win1_7.xsize (grid1.coords tLast) 0
        rw [out_facts.2.1.1, out_facts.2.2.1]
        exact ⟨Nat.zero_le _, by have : (i 0 : Nat) < 1 := (i 0).isLt; omega⟩
      | ⟨1, _⟩ =>
        show win1_7.index tLast 1 * win1_7.size 1 ≤ (i 1 : Nat)
          ∧ (i 1 : Nat) < win1_7.index tLast 1 * win1_7.size 1 + win1_7.xsize (grid1.coords tLast) 1
        rw [out_facts.2.1.2, out_facts.2.2.2]
        exact ⟨Nat.zero_le _, by have : (i 1 : Nat) < 256 := (i 1).isLt; omega⟩⟩

end Result

/-- After the second region's run the sums array holds, at graph g and column j, the sum over ALL nodes of the
    node's 0/1 indicator for g times the node's second-layer row (contraction, reciprocal scale, bias) at j. -/
theorem sums_apply (c : Dev nD) (g : Fin 256) (j : Fin 64) :
    ((dat1 (F := Ideal) V c).arrAt 6 cfg1.N : S256x64.Idx → EReal) (ix2 g j)
      = ∑ v : Fin 100000, Sage.hot ((V c main_v33 : S100000x1.Idx → BitVec 32) (ix2 v 0)) g
          * Sage.layerP (fun v k => (V c main_v32 : S100000x32.Idx → EReal) (ix2 v k))
              (fun v k => (V c main_v21 : S100000x32.Idx → EReal) (ix2 v k))
              (fun v => (V c main_v19 : S100000x1.Idx → EReal) (ix2 v 0))
              (fun k j => (V c main_arg6 : S32x64.Idx → EReal) (ix2 k j))
              (fun j => (V c main_v34 : S1x64.Idx → EReal) (ix2 0 j)) v j := by
  refine (congrFun (final6 V c) (ix2 g j)).trans ?_
  refine (sums_at V c g j 24 tLast.isLt).trans ?_
  rw [show 4000 * (24 + 1) = 100000 by norm_num, ← Fin.sum_univ_eq_sum_range (fun n => termS V c g j n) 100000]
  refine Finset.sum_congr rfl fun v _ => ?_
  unfold termS
  rw [dif_pos v.isLt]
  rfl

/-- And the counts array holds, at graph g, the sum over all nodes of the indicator. -/
theorem cnts_apply (c : Dev nD) (g : Fin 256) :
    ((dat1 (F := Ideal) V c).arrAt 7 cfg1.N : S1x256.Idx → EReal) (ix2 0 g)
      = ∑ v : Fin 100000, Sage.hot ((V c main_v33 : S100000x1.Idx → BitVec 32) (ix2 v 0)) g := by
  refine (congrFun (final7 V c) (ix2 0 g)).trans ?_
  refine (cnts_at V c g 24 tLast.isLt).trans ?_
  rw [show 4000 * (24 + 1) = 100000 by norm_num, ← Fin.sum_univ_eq_sum_range (fun n => termC V c g n) 100000]
  refine Finset.sum_congr rfl fun v _ => ?_
  unfold termC
  rw [dif_pos v.isLt]
  rfl

end Cert.KernelIdeal.Pool

end
-- ==== Proof.KernelValue.lean ====
/-
  The kernel program's result array over the extended reals, as a function of the launch contents of its arguments.

  The first region's hidden table is the first layer, its reciprocal scale applied after the contraction, clamped
  below at 0, of the neighbour sums the host computed before it; the second region's two outputs are the
  indicator-weighted sums over all nodes of the second layer's rows and of ones; the closing host division makes the
  mean. Each region is read at the buffer contents it was entered with, and those contents are the host composites
  of the arguments, read at an index.
-/
import proofs.«416373_j979252543708_2_alg».proof.Proof.Gen.KernelIdeal.Frame
import proofs.«416373_j979252543708_2_alg».proof.Proof.Sage
import proofs.«416373_j979252543708_2_alg».proof.Proof.KernelHostFn
import proofs.«416373_j979252543708_2_alg».proof.Proof.KernelHost
import proofs.«416373_j979252543708_2_alg».proof.Proof.KernelEdges
import proofs.«416373_j979252543708_2_alg».proof.Proof.KernelLayer1
import proofs.«416373_j979252543708_2_alg».proof.Proof.KernelPool
import Idealize.ShloMosaic.Lib.Pipeline.Value
import Idealize.ShloMosaic.Lib.ValueIdx

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The launch contents of the arguments, as tables and flat arrays. -/
abbrev xT (c : Dev nD) : Fin 100000 → Fin 6 → EReal := fun v k => (m ((c : Thread nD τ).loc main_arg0) : S100000x6.Idx → EReal) (ix2 v k)
abbrev srcW (c : Dev nD) : IVec S2500000 32 := m ((c : Thread nD τ).loc main_arg1)
abbrev dstW (c : Dev nD) : IVec S2500000 32 := m ((c : Thread nD τ).loc main_arg2)
abbrev gidW (c : Dev nD) : IVec S100000 32 := m ((c : Thread nD τ).loc main_arg3)
abbrev w1T (c : Dev nD) : Fin 6 → Fin 32 → EReal := fun k j => (m ((c : Thread nD τ).loc main_arg4) : S6x32.Idx → EReal) (ix2 k j)
abbrev b1T (c : Dev nD) : Fin 32 → EReal := fun j => (m ((c : Thread nD τ).loc main_arg5) : S32.Idx → EReal) (ix1 j)
abbrev w2T (c : Dev nD) : Fin 32 → Fin 64 → EReal := fun k j => (m ((c : Thread nD τ).loc main_arg6) : S32x64.Idx → EReal) (ix2 k j)
abbrev b2T (c : Dev nD) : Fin 64 → EReal := fun j => (m ((c : Thread nD τ).loc main_arg7) : S64.Idx → EReal) (ix1 j)

/-- The hidden table after the first region: the first layer with the reciprocal outside, clamped at 0. -/
theorem hid_apply (c : Dev nD) (v : Fin 100000) (j : Fin 32) :
    ((dat0 (F := Ideal) (V1 m ρ) c).arrAt 5 cfg0.N : S100000x32.Idx → EReal) (ix2 v j)
      = Sage.hiddenP (xT m c) (HostFn.wrap (srcW m c)) (dstW m c) (w1T m c) (b1T m c) v j := by
  rw [Layer1.hidden_apply (V1 m ρ) c v j]
  unfold Sage.hiddenP
  have e1 : (fun (v : Fin 100000) (k : Fin 6) => (V1 m ρ c main_v12 : S100000x6.Idx → EReal) (ix2 v k))
      = Sage.nbr (xT m c) (HostFn.wrap (srcW m c)) (dstW m c) := by
    funext v k; rw [Boundary.V1_agg m ρ c]; exact Edges.agg1_apply _ _ _ v k
  have e2 : (fun (v : Fin 100000) (k : Fin 6) => (V1 m ρ c main_arg0 : S100000x6.Idx → EReal) (ix2 v k)) = xT m c := by
    funext v k; rw [Boundary.V1_x m ρ c]
  have e3 : (fun (v : Fin 100000) => (V1 m ρ c main_v19 : S100000x1.Idx → EReal) (ix2 v 0)) = Sage.recip (dstW m c) := by
    funext v; rw [Boundary.V1_inv m ρ c]; exact Edges.invCol_apply _ _ _ v
  have e4 : (fun (k : Fin 6) (j : Fin 32) => (V1 m ρ c main_arg4 : S6x32.Idx → EReal) (ix2 k j)) = w1T m c := by
    funext k j; rw [Boundary.V1_W1 m ρ c]
  have e5 : (fun (j : Fin 32) => (V1 m ρ c main_v20 : S1x32.Idx → EReal) (ix2 0 j)) = b1T m c := by
    funext j; rw [Boundary.V1_b1 m ρ c]; exact Edges.biasRow1_apply _ j
  rw [e1, e2, e3, e4, e5]

/-- The result array at the return: the mean embedding with the reciprocal outside and indicator-weighted sums. -/
theorem result_apply (c : Dev nD) (g : Fin 256) (j : Fin 64) :
    (W5 m ρ c (Proc.devRef .tc main_v40) : S256x64.Idx → EReal) (ix2 g j)
      = Sage.resultP (xT m c) (HostFn.wrap (srcW m c)) (dstW m c) (gidW m c) (w1T m c) (b1T m c) (w2T m c) (b2T m c) g j := by
  rw [Boundary.W5_out m ρ c, Edges.mean_apply, Pool.sums_apply (V3 m ρ) c g j, Pool.cnts_apply (V3 m ρ) c g]
  unfold Sage.resultP Sage.embedP
  have g1 : ∀ v : Fin 100000, (V3 m ρ c main_v33 : S100000x1.Idx → BitVec 32) (ix2 v 0) = gidW m c (ix1 v) := by
    intro v; rw [Boundary.V3_gid m ρ c]; exact Edges.gidCol_apply _ v
  have e1 : (fun (v : Fin 100000) (k : Fin 32) => (V3 m ρ c main_v32 : S100000x32.Idx → EReal) (ix2 v k))
      = Sage.nbr (Sage.hiddenP (xT m c) (HostFn.wrap (srcW m c)) (dstW m c) (w1T m c) (b1T m c)) (HostFn.wrap (srcW m c)) (dstW m c) := by
    funext v k; rw [Boundary.V3_agg2 m ρ c, Edges.agg2_apply]
    exact congrArg (fun h : Fin 100000 → Fin 32 → EReal => Sage.nbr h (HostFn.wrap (srcW m c)) (dstW m c) v k)
      (funext fun v => funext fun k => hid_apply m ρ c v k)
  have e2 : (fun (v : Fin 100000) (k : Fin 32) => (V3 m ρ c main_v21 : S100000x32.Idx → EReal) (ix2 v k))
      = Sage.hiddenP (xT m c) (HostFn.wrap (srcW m c)) (dstW m c) (w1T m c) (b1T m c) := by
    funext v k; rw [Boundary.V3_hid m ρ c]; exact hid_apply m ρ c v k
  have e3 : (fun (v : Fin 100000) => (V3 m ρ c main_v19 : S100000x1.Idx → EReal) (ix2 v 0)) = Sage.recip (dstW m c) := by
    funext v; rw [Boundary.V3_inv m ρ c]; exact Edges.invCol_apply _ _ _ v
  have e4 : (fun (k : Fin 32) (j : Fin 64) => (V3 m ρ c main_arg6 : S32x64.Idx → EReal) (ix2 k j)) = w2T m c := by
    funext k j; rw [Boundary.V3_W2 m ρ c]
  have e5 : (fun (j : Fin 64) => (V3 m ρ c main_v34 : S1x64.Idx → EReal) (ix2 0 j)) = b2T m c := by
    funext j; rw [Boundary.V3_b2 m ρ c]; exact Edges.biasRow2_apply _ j
  rw [e1, e2, e3, e4, e5]
  simp only [g1]

end Cert.KernelIdeal.Value

end
-- ==== Proof.Reference.lean ====
/-
  The reference program's result, read at an index.

  The program computes, stage by stage: the in-degree of every node as a segment sum of ones over the destination
  words; the neighbour sum of the feature table as a segment sum, over the destination words, of the rows selected by
  the (wrapped, clamped) source words; the first layer (own row plus neighbour sum, divided by in-degree plus one,
  contracted with the weights, plus the bias, clamped below at 0); the second layer over the hidden table in the same
  way; the sum of the embedding rows and the count of nodes of every graph as segment sums over the graph words; and
  the quotient of the two, the count clamped below at 1. Each stage read at an index is the corresponding function of
  the specification; the segment sums and the row selections take their operand arrays whole and are read through
  the scatter and gather laws.
-/
import proofs.«416373_j979252543708_2_alg».proof.Proof.Gen.ReferenceIdeal.Run
import proofs.«416373_j979252543708_2_alg».proof.Proof.Gen.ReferenceIdeal.Read
import proofs.«416373_j979252543708_2_alg».proof.Proof.Sage
import proofs.«416373_j979252543708_2_alg».proof.Proof.LibScatterRows
import proofs.«416373_j979252543708_2_alg».proof.Proof.LibGatherRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Graph

open Cert.ReferenceIdeal Cert.ReferenceIdeal.Gen Cert.ReferenceIdeal.Read Idealize.ShloMosaic Idealize.ShloMosaic.ValueIdx
open scoped BigOperators

/-! ### Index bookkeeping: a column of words read at row e is the word e -/

theorem v2_col (x2 : (⟨S2500000, .i32⟩ : BufTy).Contents (Elt Ideal)) (e : Fin 2500000) :
    val_main_v2 (F := Ideal) x2 (ix2 e (0 : Fin 1)) = x2 (ix1 e) := by
  rw [val_main_v2_apply]
  exact congrArg x2 (funext fun a => match a with | ⟨0, _⟩ => rfl)

theorem v12_col (x2 : (⟨S2500000, .i32⟩ : BufTy).Contents (Elt Ideal)) (e : Fin 2500000) :
    val_main_v12 (F := Ideal) x2 (ix2 e (0 : Fin 1)) = x2 (ix1 e) := by
  rw [val_main_v12_apply]
  exact congrArg x2 (funext fun a => match a with | ⟨0, _⟩ => rfl)

theorem v33_col (x2 : (⟨S2500000, .i32⟩ : BufTy).Contents (Elt Ideal)) (e : Fin 2500000) :
    val_main_v33 (F := Ideal) x2 (ix2 e (0 : Fin 1)) = x2 (ix1 e) := by
  rw [val_main_v33_apply]
  exact congrArg x2 (funext fun a => match a with | ⟨0, _⟩ => rfl)

theorem v46_col (x3 : (⟨S100000, .i32⟩ : BufTy).Contents (Elt Ideal)) (e : Fin 100000) :
    val_main_v46 (F := Ideal) x3 (ix2 e (0 : Fin 1)) = x3 (ix1 e) := by
  rw [val_main_v46_apply]
  exact congrArg x3 (funext fun a => match a with | ⟨0, _⟩ => rfl)

theorem v50_col (x3 : (⟨S100000, .i32⟩ : BufTy).Contents (Elt Ideal)) (e : Fin 100000) :
    val_main_v50 (F := Ideal) x3 (ix2 e (0 : Fin 1)) = x3 (ix1 e) := by
  rw [val_main_v50_apply]
  exact congrArg x3 (funext fun a => match a with | ⟨0, _⟩ => rfl)

theorem v9_col (x1 : (⟨S2500000, .i32⟩ : BufTy).Contents (Elt Ideal)) (e : Fin 2500000) :
    val_main_v9 (F := Ideal) x1 (ix2 e (0 : Fin 1)) = val_main_v8 (F := Ideal) x1 (ix1 e) := by
  rw [val_main_v9_apply]
  exact congrArg (val_main_v8 (F := Ideal) x1) (funext fun a => match a with | ⟨0, _⟩ => rfl)

/-- The second layer wraps the source words exactly as the first does. -/
theorem v29_eq (x1 : (⟨S2500000, .i32⟩ : BufTy).Contents (Elt Ideal)) :
    val_main_v29 (F := Ideal) x1 = val_main_v8 (F := Ideal) x1 := rfl

theorem v30_col (x1 : (⟨S2500000, .i32⟩ : BufTy).Contents (Elt Ideal)) (e : Fin 2500000) :
    val_main_v30 (F := Ideal) x1 (ix2 e (0 : Fin 1)) = val_main_v8 (F := Ideal) x1 (ix1 e) := by
  rw [val_main_v30_apply, v29_eq]
  exact congrArg (val_main_v8 (F := Ideal) x1) (funext fun a => match a with | ⟨0, _⟩ => rfl)

/-! ### The in-degree -/

/-- The in-degree of node v: the segment sum of ones over the destination words, from a zero table. -/
theorem deg_apply (x2 : (⟨S2500000, .i32⟩ : BufTy).Contents (Elt Ideal)) (v : Fin 100000) :
    val_main_v3 (F := Ideal) x2 (ix1 v) = Sage.edgeSum x2 (fun _ => 1) v := by
  unfold val_main_v3
  refine (Cert.LibScatterRows.scatterAdd_vec_apply scatter_S100000_S2500000x1_S2500000_n_0_0_1 rfl rfl rfl rfl
    (val_main_v1 (F := Ideal)) (val_main_v2 (F := Ideal) x2) (val_main_v0 (F := Ideal)) v).trans ?_
  rw [val_main_v1_apply, val_main_cst_0_apply, Ideal.ofBits_def, Ideal.ofBits_zero_f32, zero_add]
  unfold Sage.edgeSum
  refine Finset.sum_congr rfl fun e _ => ?_
  rw [v2_col, val_main_v0_apply, val_main_cst_apply, Ideal.ofBits_def, Sage.ofBits_one]

/-- In-degree plus one, as the first layer reads it. -/
theorem degP1_apply (x2 : (⟨S2500000, .i32⟩ : BufTy).Contents (Elt Ideal)) (v : Fin 100000) :
    val_main_v16 (F := Ideal) x2 (ix1 v) = Sage.degP1 x2 v := by
  rw [val_main_v16_apply, deg_apply, val_main_v15_apply, val_main_cst_3_apply, Ideal.ofBits_def, Sage.ofBits_one,
    Ideal.addf_def]
  rfl

/-- In-degree plus one, as the second layer reads it. -/
theorem degP1_apply' (x2 : (⟨S2500000, .i32⟩ : BufTy).Contents (Elt Ideal)) (v : Fin 100000) :
    val_main_v37 (F := Ideal) x2 (ix1 v) = Sage.degP1 x2 v := by
  rw [val_main_v37_apply, deg_apply, val_main_v36_apply, val_main_cst_7_apply, Ideal.ofBits_def, Sage.ofBits_one,
    Ideal.addf_def]
  rfl

/-- In-degree plus one, spread along the 6 feature columns. -/
theorem degCol_apply (x2 : (⟨S2500000, .i32⟩ : BufTy).Contents (Elt Ideal)) (v : Fin 100000) (k : Fin 6) :
    val_main_v18 (F := Ideal) x2 (ix2 v k) = Sage.degP1 x2 v := by
  rw [val_main_v18_apply, val_main_v17_apply]
  refine (congrArg (val_main_v16 (F := Ideal) x2) (funext fun a => ?_)).trans (degP1_apply x2 v)
  match a with
  | ⟨0, _⟩ => rfl

/-- In-degree plus one, spread along the 32 hidden columns. -/
theorem degCol_apply' (x2 : (⟨S2500000, .i32⟩ : BufTy).Contents (Elt Ideal)) (v : Fin 100000) (k : Fin 32) :
    val_main_v39 (F := Ideal) x2 (ix2 v k) = Sage.degP1 x2 v := by
  rw [val_main_v39_apply, val_main_v38_apply]
  refine (congrArg (val_main_v37 (F := Ideal) x2) (funext fun a => ?_)).trans (degP1_apply' x2 v)
  match a with
  | ⟨0, _⟩ => rfl

/-! ### The first layer -/

/-- Row e of the selected feature rows is the feature row of edge e's source node. -/
theorem src_apply (x0 : (⟨S100000x6, .f32⟩ : BufTy).Contents (Elt Ideal)) (x1 : (⟨S2500000, .i32⟩ : BufTy).Contents (Elt Ideal))
    (e : Fin 2500000) (k : Fin 6) :
    val_main_v10 (F := Ideal) x0 x1 (ix2 e k) = x0 (ix2 (Sage.node (val_main_v8 (F := Ideal) x1) e) k) := by
  unfold val_main_v10
  refine (Cert.LibGatherRows.gather_rows gather_S100000x6_S2500000x1_S2500000x6_1_0_n_n_0_1_16 rfl rfl rfl rfl rfl rfl
    x0 (val_main_v9 (F := Ideal) x1) e k (Nat.succ_pos _)).trans ?_
  refine congrArg (fun r => x0 (ix2 r k)) (Fin.ext ?_)
  show min (val_main_v9 (F := Ideal) x1 (ix2 e (0 : Fin 1))).toInt.toNat (100000 - 1)
    = min (val_main_v8 (F := Ideal) x1 (ix1 e)).toInt.toNat (100000 - 1)
  rw [v9_col]

/-- The neighbour sum of the feature table: the segment sum of the selected rows over the destination words. -/
theorem nbr_apply (x0 : (⟨S100000x6, .f32⟩ : BufTy).Contents (Elt Ideal)) (x1 x2 : (⟨S2500000, .i32⟩ : BufTy).Contents (Elt Ideal))
    (v : Fin 100000) (k : Fin 6) :
    val_main_v13 (F := Ideal) x0 x1 x2 (ix2 v k)
      = Sage.nbr (fun v k => x0 (ix2 v k)) (val_main_v8 (F := Ideal) x1) x2 v k := by
  unfold val_main_v13
  refine (Cert.LibScatterRows.scatterAdd_rows_apply scatter_S100000x6_S2500000x1_S2500000x6_1_0_0_1 rfl rfl rfl rfl
    (val_main_v11 (F := Ideal)) (val_main_v12 (F := Ideal) x2) (val_main_v10 (F := Ideal) x0 x1) v k).trans ?_
  rw [val_main_v11_apply, val_main_cst_2_apply, Ideal.ofBits_def, Ideal.ofBits_zero_f32, zero_add]
  unfold Sage.nbr Sage.edgeSum
  refine Finset.sum_congr rfl fun e _ => ?_
  rw [v12_col, src_apply]

/-- The first layer's contraction operand: own entry plus neighbour sum, over in-degree plus one. -/
theorem quot_apply (x0 : (⟨S100000x6, .f32⟩ : BufTy).Contents (Elt Ideal)) (x1 x2 : (⟨S2500000, .i32⟩ : BufTy).Contents (Elt Ideal))
    (v : Fin 100000) (k : Fin 6) :
    val_main_v19 (F := Ideal) x0 x1 x2 (ix2 v k)
      = Ideal.div (Sage.nbr (fun v k => x0 (ix2 v k)) (val_main_v8 (F := Ideal) x1) x2 v k + x0 (ix2 v k)) (Sage.degP1 x2 v) := by
  rw [val_main_v19_apply, val_main_v14_apply, nbr_apply, degCol_apply, Ideal.hostDivf_def, Ideal.addf_def]

/-- The hidden table: the first layer clamped below at 0. -/
theorem hidden_apply (x0 : (⟨S100000x6, .f32⟩ : BufTy).Contents (Elt Ideal)) (x1 x2 : (⟨S2500000, .i32⟩ : BufTy).Contents (Elt Ideal))
    (x4 : (⟨S6x32, .f32⟩ : BufTy).Contents (Elt Ideal)) (x5 : (⟨S32, .f32⟩ : BufTy).Contents (Elt Ideal))
    (v : Fin 100000) (j : Fin 32) :
    val_main_v24 (F := Ideal) x0 x1 x2 x4 x5 (ix2 v j)
      = Sage.hiddenQ (fun v k => x0 (ix2 v k)) (val_main_v8 (F := Ideal) x1) x2 (fun k j => x4 (ix2 k j))
          (fun j => x5 (ix1 j)) v j := by
  have hl : ∀ k : Fin 6, lidx_main_v20 (ix2 v j) k = ix2 v k := fun k =>
    funext fun a => match a with | ⟨0, _⟩ => rfl | ⟨1, _⟩ => rfl
  have hr : ∀ k : Fin 6, ridx_main_v20 (ix2 v j) k = ix2 k j := fun k =>
    funext fun a => match a with | ⟨0, _⟩ => rfl | ⟨1, _⟩ => rfl
  have hb : idx_main_v21 (idx_main_v22 (ix2 v j)) = ix1 j :=
    funext fun a => match a with | ⟨0, _⟩ => rfl
  rw [val_main_v24_apply, val_main_v23_apply, val_main_v20_apply, val_main_call0_v0_apply, val_main_call0_cst_apply,
    val_main_v22_apply, val_main_v21_apply, hb, Ideal.ofBits_def, Ideal.ofBits_zero_f32, Ideal.maximumf_def,
    Ideal.addf_def]
  simp only [hl, hr, quot_apply]
  rfl

/-! ### The second layer -/

/-- Row e of the selected hidden rows is the hidden row of edge e's source node. -/
theorem src_apply' (x0 : (⟨S100000x6, .f32⟩ : BufTy).Contents (Elt Ideal)) (x1 x2 : (⟨S2500000, .i32⟩ : BufTy).Contents (Elt Ideal))
    (x4 : (⟨S6x32, .f32⟩ : BufTy).Contents (Elt Ideal)) (x5 : (⟨S32, .f32⟩ : BufTy).Contents (Elt Ideal))
    (e : Fin 2500000) (k : Fin 32) :
    val_main_v31 (F := Ideal) x0 x1 x2 x4 x5 (ix2 e k)
      = Sage.hiddenQ (fun v k => x0 (ix2 v k)) (val_main_v8 (F := Ideal) x1) x2 (fun k j => x4 (ix2 k j))
          (fun j => x5 (ix1 j)) (Sage.node (val_main_v8 (F := Ideal) x1) e) k := by
  unfold val_main_v31
  refine (Cert.LibGatherRows.gather_rows gather_S100000x32_S2500000x1_S2500000x32_1_0_n_n_0_1_132 rfl rfl rfl rfl rfl rfl
    (val_main_v24 (F := Ideal) x0 x1 x2 x4 x5) (val_main_v30 (F := Ideal) x1) e k (Nat.succ_pos _)).trans ?_
  refine (hidden_apply x0 x1 x2 x4 x5 _ k).trans ?_
  refine congrArg (fun r => Sage.hiddenQ (fun v k => x0 (ix2 v k)) (val_main_v8 (F := Ideal) x1) x2 (fun k j => x4 (ix2 k j))
          (fun j => x5 (ix1 j)) r k) (Fin.ext ?_)
  show min (val_main_v30 (F := Ideal) x1 (ix2 e (0 : Fin 1))).toInt.toNat (100000 - 1)
    = min (val_main_v8 (F := Ideal) x1 (ix1 e)).toInt.toNat (100000 - 1)
  rw [v30_col]

/-- The neighbour sum of the hidden table. -/
theorem nbr_apply' (x0 : (⟨S100000x6, .f32⟩ : BufTy).Contents (Elt Ideal)) (x1 x2 : (⟨S2500000, .i32⟩ : BufTy).Contents (Elt Ideal))
    (x4 : (⟨S6x32, .f32⟩ : BufTy).Contents (Elt Ideal)) (x5 : (⟨S32, .f32⟩ : BufTy).Contents (Elt Ideal))
    (v : Fin 100000) (k : Fin 32) :
    val_main_v34 (F := Ideal) x0 x1 x2 x4 x5 (ix2 v k)
      = Sage.nbr (Sage.hiddenQ (fun v k => x0 (ix2 v k)) (val_main_v8 (F := Ideal) x1) x2 (fun k j => x4 (ix2 k j))
          (fun j => x5 (ix1 j))) (val_main_v8 (F := Ideal) x1) x2 v k := by
  unfold val_main_v34
  refine (Cert.LibScatterRows.scatterAdd_rows_apply scatter_S100000x32_S2500000x1_S2500000x32_1_0_0_1 rfl rfl rfl rfl
    (val_main_v32 (F := Ideal)) (val_main_v33 (F := Ideal) x2) (val_main_v31 (F := Ideal) x0 x1 x2 x4 x5) v k).trans ?_
  rw [val_main_v32_apply, val_main_cst_6_apply, Ideal.ofBits_def, Ideal.ofBits_zero_f32, zero_add]
  unfold Sage.nbr Sage.edgeSum
  refine Finset.sum_congr rfl fun e _ => ?_
  rw [v33_col, src_apply']

/-- The second layer's contraction operand: own hidden entry plus neighbour sum, over in-degree plus one. -/
theorem quot_apply' (x0 : (⟨S100000x6, .f32⟩ : BufTy).Contents (Elt Ideal)) (x1 x2 : (⟨S2500000, .i32⟩ : BufTy).Contents (Elt Ideal))
    (x4 : (⟨S6x32, .f32⟩ : BufTy).Contents (Elt Ideal)) (x5 : (⟨S32, .f32⟩ : BufTy).Contents (Elt Ideal))
    (v : Fin 100000) (k : Fin 32) :
    val_main_v40 (F := Ideal) x0 x1 x2 x4 x5 (ix2 v k)
      = Ideal.div (Sage.nbr (Sage.hiddenQ (fun v k => x0 (ix2 v k)) (val_main_v8 (F := Ideal) x1) x2 (fun k j => x4 (ix2 k j))
          (fun j => x5 (ix1 j))) (val_main_v8 (F := Ideal) x1) x2 v k
          + Sage.hiddenQ (fun v k => x0 (ix2 v k)) (val_main_v8 (F := Ideal) x1) x2 (fun k j => x4 (ix2 k j))
          (fun j => x5 (ix1 j)) v k) (Sage.degP1 x2 v) := by
  rw [val_main_v40_apply, val_main_v35_apply, nbr_apply', hidden_apply, degCol_apply', Ideal.hostDivf_def, Ideal.addf_def]

/-- The embedding table: the second layer over the hidden table. -/
theorem embed_apply (x0 : (⟨S100000x6, .f32⟩ : BufTy).Contents (Elt Ideal)) (x1 x2 : (⟨S2500000, .i32⟩ : BufTy).Contents (Elt Ideal))
    (x4 : (⟨S6x32, .f32⟩ : BufTy).Contents (Elt Ideal)) (x5 : (⟨S32, .f32⟩ : BufTy).Contents (Elt Ideal))
    (x6 : (⟨S32x64, .f32⟩ : BufTy).Contents (Elt Ideal)) (x7 : (⟨S64, .f32⟩ : BufTy).Contents (Elt Ideal))
    (v : Fin 100000) (j : Fin 64) :
    val_main_v44 (F := Ideal) x0 x1 x2 x4 x5 x6 x7 (ix2 v j)
      = Sage.embedQ (fun v k => x0 (ix2 v k)) (val_main_v8 (F := Ideal) x1) x2 (fun k j => x4 (ix2 k j))
          (fun j => x5 (ix1 j)) (fun k j => x6 (ix2 k j)) (fun j => x7 (ix1 j)) v j := by
  have hl : ∀ k : Fin 32, lidx_main_v41 (ix2 v j) k = ix2 v k := fun k =>
    funext fun a => match a with | ⟨0, _⟩ => rfl | ⟨1, _⟩ => rfl
  have hr : ∀ k : Fin 32, ridx_main_v41 (ix2 v j) k = ix2 k j := fun k =>
    funext fun a => match a with | ⟨0, _⟩ => rfl | ⟨1, _⟩ => rfl
  have hb : idx_main_v42 (idx_main_v43 (ix2 v j)) = ix1 j :=
    funext fun a => match a with | ⟨0, _⟩ => rfl
  rw [val_main_v44_apply, val_main_v41_apply, val_main_v43_apply, val_main_v42_apply, hb, Ideal.addf_def]
  simp only [hl, hr, quot_apply']
  rfl

/-! ### The mean over each graph -/

/-- The sum of the embedding rows of graph g: the segment sum of the embedding table over the graph words. -/
theorem poolSum_apply (x0 : (⟨S100000x6, .f32⟩ : BufTy).Contents (Elt Ideal)) (x1 x2 : (⟨S2500000, .i32⟩ : BufTy).Contents (Elt Ideal))
    (x3 : (⟨S100000, .i32⟩ : BufTy).Contents (Elt Ideal))
    (x4 : (⟨S6x32, .f32⟩ : BufTy).Contents (Elt Ideal)) (x5 : (⟨S32, .f32⟩ : BufTy).Contents (Elt Ideal))
    (x6 : (⟨S32x64, .f32⟩ : BufTy).Contents (Elt Ideal)) (x7 : (⟨S64, .f32⟩ : BufTy).Contents (Elt Ideal))
    (g : Fin 256) (j : Fin 64) :
    val_main_v47 (F := Ideal) x0 x1 x2 x3 x4 x5 x6 x7 (ix2 g j)
      = Sage.poolSum (Sage.embedQ (fun v k => x0 (ix2 v k)) (val_main_v8 (F := Ideal) x1) x2 (fun k j => x4 (ix2 k j))
          (fun j => x5 (ix1 j)) (fun k j => x6 (ix2 k j)) (fun j => x7 (ix1 j))) x3 g j := by
  unfold val_main_v47
  refine (Cert.LibScatterRows.scatterAdd_rows_apply scatter_S256x64_S100000x1_S100000x64_1_0_0_1 rfl rfl rfl rfl
    (val_main_v45 (F := Ideal)) (val_main_v46 (F := Ideal) x3) (val_main_v44 (F := Ideal) x0 x1 x2 x4 x5 x6 x7) g j).trans ?_
  rw [val_main_v45_apply, val_main_cst_8_apply, Ideal.ofBits_def, Ideal.ofBits_zero_f32, zero_add]
  unfold Sage.poolSum
  refine Finset.sum_congr rfl fun v _ => ?_
  rw [v46_col, embed_apply]

/-- The number of nodes of graph g: the segment sum of ones over the graph words. -/
theorem poolCnt_apply (x3 : (⟨S100000, .i32⟩ : BufTy).Contents (Elt Ideal)) (g : Fin 256) :
    val_main_v51 (F := Ideal) x3 (ix1 g) = Sage.poolCnt x3 g := by
  unfold val_main_v51
  refine (Cert.LibScatterRows.scatterAdd_vec_apply scatter_S256_S100000x1_S100000_n_0_0_1 rfl rfl rfl rfl
    (val_main_v49 (F := Ideal)) (val_main_v50 (F := Ideal) x3) (val_main_v48 (F := Ideal)) g).trans ?_
  rw [val_main_v49_apply, val_main_cst_10_apply, Ideal.ofBits_def, Ideal.ofBits_zero_f32, zero_add]
  unfold Sage.poolCnt
  refine Finset.sum_congr rfl fun v _ => ?_
  rw [v50_col, val_main_v48_apply, val_main_cst_9_apply, Ideal.ofBits_def, Sage.ofBits_one]

/-- The divisor of graph g's mean, spread along the 64 columns: the count clamped below at 1. -/
theorem cntCol_apply (x3 : (⟨S100000, .i32⟩ : BufTy).Contents (Elt Ideal)) (g : Fin 256) (j : Fin 64) :
    val_main_v55 (F := Ideal) x3 (ix2 g j) = max (Sage.poolCnt x3 g) 1 := by
  have hi : idx_main_v54 (idx_main_v55 (ix2 g j)) = ix1 g :=
    funext fun a => match a with | ⟨0, _⟩ => rfl
  rw [val_main_v55_apply, val_main_v54_apply, hi, val_main_v53_apply, poolCnt_apply, val_main_v52_apply,
    val_main_cst_11_apply, Ideal.ofBits_def, Sage.ofBits_one, Ideal.maximumf_def]

/-- The reference's result at graph g and column j is the mean embedding with every division inside the
    contraction, of the argument arrays; the source words enter through their wrapped form, the stage `val_main_v8`. -/
theorem result_apply (x0 : (⟨S100000x6, .f32⟩ : BufTy).Contents (Elt Ideal)) (x1 x2 : (⟨S2500000, .i32⟩ : BufTy).Contents (Elt Ideal))
    (x3 : (⟨S100000, .i32⟩ : BufTy).Contents (Elt Ideal)) (x4 : (⟨S6x32, .f32⟩ : BufTy).Contents (Elt Ideal))
    (x5 : (⟨S32, .f32⟩ : BufTy).Contents (Elt Ideal)) (x6 : (⟨S32x64, .f32⟩ : BufTy).Contents (Elt Ideal))
    (x7 : (⟨S64, .f32⟩ : BufTy).Contents (Elt Ideal)) (g : Fin 256) (j : Fin 64) :
    val_main_v56 (F := Ideal) x0 x1 x2 x3 x4 x5 x6 x7 (ix2 g j)
      = Sage.resultQ (fun v k => x0 (ix2 v k)) (val_main_v8 (F := Ideal) x1) x2 x3 (fun k j => x4 (ix2 k j)) (fun j => x5 (ix1 j))
          (fun k j => x6 (ix2 k j)) (fun j => x7 (ix1 j)) g j := by
  rw [val_main_v56_apply, poolSum_apply, cntCol_apply, Ideal.hostDivf_def]
  rfl

end Cert.ReferenceIdeal.Graph

end
-- ==== Proof.lean ====
/-
  Two layers of graph convolution and a mean over each graph of a batch: the kernel program against its reference,
  over the extended reals.

  Both programs gather each edge's source row, sum by destination node, add the node's own row, scale by one over
  (in-degree + 1), contract with the layer's weights and add its bias (the first layer clamped below at 0), twice, and
  then average the rows of each graph. They differ in three places. The kernel takes the in-degree from a column of
  ones summed together with the features, where the reference sums ones separately: the same sums. The kernel
  multiplies each contraction by the reciprocal of (in-degree + 1) where the reference divides every summand before
  contracting: equal on finite inputs, since a real factor moves across a finite sum of reals (this is where the
  precondition is used: every feature, weight and bias is finite, so every neighbour sum and every hidden entry is).
  The kernel sums each graph's rows as a product with a 0/1 indicator over all nodes, block by block of 4000 nodes,
  where the reference sums the rows selected by the graph word: equal outright, 0 annihilating and 1 neutral for
  the product of extended reals, and a finite sum of extended reals not depending on its order.

  The idealization rewrote no operation, so there is nothing to preserve beyond the program's own text.
-/
import proofs.«416373_j979252543708_2_alg».proof.Defs
import proofs.«416373_j979252543708_2_alg».proof.Proof.Gen.Kernel
import proofs.«416373_j979252543708_2_alg».proof.Proof.Gen.Kernel.Frame
import proofs.«416373_j979252543708_2_alg».proof.Proof.Gen.KernelIdeal
import proofs.«416373_j979252543708_2_alg».proof.Proof.Gen.KernelIdeal.Frame
import proofs.«416373_j979252543708_2_alg».proof.Proof.Gen.ReferenceIdeal
import proofs.«416373_j979252543708_2_alg».proof.Proof.Gen.ReferenceIdeal.Run
import proofs.«416373_j979252543708_2_alg».proof.Proof.Gen.ReferenceIdeal.Read
import proofs.«416373_j979252543708_2_alg».proof.Proof.Gen.Pre_finite_inputs
import proofs.«416373_j979252543708_2_alg».proof.Proof.Sage
import proofs.«416373_j979252543708_2_alg».proof.Proof.SageLaws
import proofs.«416373_j979252543708_2_alg».proof.Proof.Finite
import proofs.«416373_j979252543708_2_alg».proof.Proof.KernelHostFn
import proofs.«416373_j979252543708_2_alg».proof.Proof.KernelRun
import proofs.«416373_j979252543708_2_alg».proof.Proof.KernelValue
import proofs.«416373_j979252543708_2_alg».proof.Proof.Reference
import Idealize.ShloMosaic.Lib.ValueIdx
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The wrapped source words are one term in the two programs. -/
theorem wrap_eq (src : IVec Cert.KernelIdeal.S2500000 32) :
    Cert.ReferenceIdeal.Read.val_main_v8 (F := Ideal) src = Cert.KernelIdeal.HostFn.wrap src := rfl

/-- Over the extended reals, from memories that agree on the arguments, both programs end with the same result
    array: the kernel's is the mean embedding with each layer's reciprocal scale applied after the contraction and
    the graph sums taken as indicator-weighted sums over all nodes; the reference's has every division inside the
    contraction and conditional sums; on finite inputs these are one function. -/
theorem algebraic : Cert.algebraic_KernelIdeal_ReferenceIdeal := by
  intro m ρ m' ρ' hpre hagree
  refine ⟨fun c => Cert.KernelIdeal.Gen.W5 m ρ c (Proc.devRef .tc Cert.KernelIdeal.main_v40),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  obtain ⟨h0, h1, h2, h3, h4, h5, h6, h7⟩ := hagree c
  rw [h0, h1, h2, h3, h4, h5, h6, h7]
  funext i
  obtain ⟨g, j, rfl⟩ : ∃ (g : Fin 256) (j : Fin 64), i = ix2 g j := ⟨i 0, i 1, eq_ix2 i⟩
  obtain ⟨hx, hW1, hb1, hW2, hb2⟩ := Cert.Pre_finite_inputs.Finite.real_of_fn _ _ _ _ _ _ _ _ (hpre c)
  refine (Cert.ReferenceIdeal.Graph.result_apply _ _ _ _ _ _ _ _ g j).trans ?_
  refine Eq.trans ?_ (Cert.KernelIdeal.Value.result_apply m ρ c g j).symm
  rw [wrap_eq]
  exact (Sage.resultP_eq_resultQ _ _ _ _ _ _ _ _ (fun v k => hx _) (fun k j => hW1 _) (fun j => hb1 _)
    (fun k j => hW2 _) (fun j => hb2 _) g j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
